-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000 : S_.BroadcastsInDim S625000 (![] : Fin 0 → Fin S625000.rank)
  reducesTo_S625000_S_d0 : S625000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_v28 : IVec S_ 1) (main_v33 : IVec S625000 1) : IVec S_ 1 :=
  let main_c_12 : IVec S_ 1 := constantI S_ 1 1#1
  let main_v34 : IVec S_ 1 := (fun x v => Host.reduce IntOp.andi x v reducesTo_S625000_S_d0 h_S_) main_v33 main_c_12
  let main_v35 : IVec S_ 1 := andi main_v28 main_v34
  main_v35

def fn_part1 {F : FTy → Type} [FloatOps F] (main_arg1 : IVec S625000 32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S625000 32 := broadcastInDim S625000 ![] bcast_S_S625000 main_c_10
  let main_v30 : IVec S625000 1 := cmpi .sge main_arg1 main_v29
  let main_c_11 : IVec S_ 32 := constantI S_ 32 50000#32
  let main_v31 : IVec S625000 32 := broadcastInDim S625000 ![] bcast_S_S625000 main_c_11
  let main_v32 : IVec S625000 1 := cmpi .slt main_arg1 main_v31
  let main_v33 : IVec S625000 1 := andi main_v30 main_v32
  fn_part2 (F := F) main_v28 main_v33

def fn {F : FTy → Type} [FloatOps F] (main_arg0 : FVec F S50000x128 .f32) (main_arg1 : IVec S625000 32) (main_arg2 : IVec S625000 32) (main_arg3 : FVec F S625000 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000 .f32 := Host.absf main_arg3
  let main_cst_0 : FVec F S_ .f32 := constant S_ .f32 0x7F800000#32
  let main_v5 : FVec F S625000 .f32 := broadcastInDim S625000 ![] bcast_S_S625000 main_cst_0
  let main_v6 : IVec S625000 1 := cmpf .olt main_v4 main_v5
  let main_c_1 : IVec S_ 1 := constantI S_ 1 1#1
  let main_v7 : IVec S_ 1 := (fun x v => Host.reduce IntOp.andi x v reducesTo_S625000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_v13 main_v16
-- ==== Kernel.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩
abbrev S634880 : Shape := ⟨1, ![634880]⟩
abbrev S634880x1 : Shape := ⟨2, ![634880, 1]⟩
abbrev S1 : Shape := ⟨1, ![1]⟩
abbrev S1x1 : Shape := ⟨2, ![1, 1]⟩
abbrev S634880x128 : Shape := ⟨2, ![634880, 128]⟩
abbrev S10240x128 : Shape := ⟨2, ![10240, 128]⟩
abbrev S10240x1 : Shape := ⟨2, ![10240, 1]⟩
abbrev S1x128 : Shape := ⟨2, ![1, 128]⟩
abbrev S10000x128 : Shape := ⟨2, ![10000, 128]⟩

abbrev nBuf : Space → Nat
  | .hbm => 48
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S625000, .i32⟩
  | .hbm, ⟨2, _⟩ => ⟨S625000, .i32⟩
  | .hbm, ⟨3, _⟩ => ⟨S625000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S_, .i32⟩
  | .hbm, ⟨10, _⟩ => ⟨S634880, .i32⟩
  | .hbm, ⟨11, _⟩ => ⟨S_, .i32⟩
  | .hbm, ⟨12, _⟩ => ⟨S_, .i32⟩
  | .hbm, ⟨13, _⟩ => ⟨S634880, .i32⟩
  | .hbm, ⟨14, _⟩ => ⟨S_, .f32⟩
  | .hbm, ⟨15, _⟩ => ⟨S_, .f32⟩
  | .hbm, ⟨16, _⟩ => ⟨S634880, .f32⟩
  | .hbm, ⟨17, _⟩ => ⟨S_, .i32⟩
  | .hbm, ⟨18, _⟩ => ⟨S634880, .i32⟩
  | .hbm, ⟨19, _⟩ => ⟨S634880, .i1⟩
  | .hbm, ⟨20, _⟩ => ⟨S_, .i32⟩
  | .hbm, ⟨21, _⟩ => ⟨S634880, .i32⟩
  | .hbm, ⟨22, _⟩ => ⟨S634880, .i32⟩
  | .hbm, ⟨23, _⟩ => ⟨S634880, .i32⟩
  | .hbm, ⟨24, _⟩ => ⟨S634880x1, .i32⟩
  | .hbm, ⟨25, _⟩ => ⟨S1, .i32⟩
  | .hbm, ⟨26, _⟩ => ⟨S_, .i32⟩
  | .hbm, ⟨27, _⟩ => ⟨S634880x1, .i32⟩
  | .hbm, ⟨28, _⟩ => ⟨S634880x1, .i1⟩
  | .hbm, ⟨29, _⟩ => ⟨S1x1, .i32⟩
  | .hbm, ⟨30, _⟩ => ⟨S634880x1, .i32⟩
  | .hbm, ⟨31, _⟩ => ⟨S634880x1, .i1⟩
  | .hbm, ⟨32, _⟩ => ⟨S634880x1, .i1⟩
  | .hbm, ⟨33, _⟩ => ⟨S_, .i1⟩
  | .hbm, ⟨34, _⟩ => ⟨S634880, .i1⟩
  | .hbm, ⟨35, _⟩ => ⟨S634880x128, .f32⟩
  | .hbm, ⟨36, _⟩ => ⟨S634880x128, .i1⟩
  | .hbm, ⟨37, _⟩ => ⟨S_, .f32⟩
  | .hbm, ⟨38, _⟩ => ⟨S634880x128, .f32⟩
  | .hbm, ⟨39, _⟩ => ⟨S634880x128, .f32⟩
  | .hbm, ⟨40, _⟩ => ⟨S634880x128, .bf16⟩
  | .hbm, ⟨41, _⟩ => ⟨S634880x1, .f32⟩
  | .hbm, ⟨42, _⟩ => ⟨S634880x128, .f32⟩
  | .hbm, ⟨43, _⟩ => ⟨S_, .f32⟩
  | .hbm, ⟨44, _⟩ => ⟨S50000x128, .f32⟩
  | .hbm, ⟨45, _⟩ => ⟨S634880x1, .i32⟩
  | .hbm, ⟨46, _⟩ => ⟨S50000x128, .f32⟩
  | .hbm, ⟨47, _⟩ => ⟨S50000x128, .f32⟩
  | .local _ .vmem, ⟨0, _⟩ => ⟨S10240x128, .bf16⟩
  | .local _ .vmem, ⟨1, _⟩ => ⟨S10240x128, .bf16⟩
  | .local _ .vmem, ⟨2, _⟩ => ⟨S10240x1, .f32⟩
  | .local _ .vmem, ⟨3, _⟩ => ⟨S10240x1, .f32⟩
  | .local _ .vmem, ⟨4, _⟩ => ⟨S128x128, .f32⟩
  | .local _ .vmem, ⟨5, _⟩ => ⟨S128, .f32⟩
  | .local _ .vmem, ⟨6, _⟩ => ⟨S10240x128, .f32⟩
  | .local _ .vmem, ⟨7, _⟩ => ⟨S10240x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S128, .f32⟩
  | .local _ .vmem, ⟨14, _⟩ => ⟨S10000x128, .f32⟩
  | .local _ .vmem, ⟨15, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_cst : Ref sig .tc := ⟨.hbm, 14, rfl⟩
abbrev main_call2_v0 : Ref sig .tc := ⟨.hbm, 15, rfl⟩
abbrev main_v2 : Ref sig .tc := ⟨.hbm, 16, rfl⟩
abbrev main_call3_c : Ref sig .tc := ⟨.hbm, 17, rfl⟩
abbrev main_call3_v0 : Ref sig .tc := ⟨.hbm, 18, rfl⟩
abbrev main_call3_v1 : Ref sig .tc := ⟨.hbm, 19, rfl⟩
abbrev main_call3_c_0 : Ref sig .tc := ⟨.hbm, 20, rfl⟩
abbrev main_call3_v2 : Ref sig .tc := ⟨.hbm, 21, rfl⟩
abbrev main_call3_v3 : Ref sig .tc := ⟨.hbm, 22, rfl⟩
abbrev main_call3_v4 : Ref sig .tc := ⟨.hbm, 23, rfl⟩
abbrev main_call3_v5 : Ref sig .tc := ⟨.hbm, 24, rfl⟩
abbrev main_call3_c_1 : Ref sig .tc := ⟨.hbm, 25, rfl⟩
abbrev main_call3_c_2 : Ref sig .tc := ⟨.hbm, 26, rfl⟩
abbrev main_call3_v6 : Ref sig .tc := ⟨.hbm, 27, rfl⟩
abbrev main_call3_v7 : Ref sig .tc := ⟨.hbm, 28, rfl⟩
abbrev main_call3_v8 : Ref sig .tc := ⟨.hbm, 29, rfl⟩
abbrev main_call3_v9 : Ref sig .tc := ⟨.hbm, 30, rfl⟩
abbrev main_call3_v10 : Ref sig .tc := ⟨.hbm, 31, rfl⟩
abbrev main_call3_v11 : Ref sig .tc := ⟨.hbm, 32, rfl⟩
abbrev main_call3_c_3 : Ref sig .tc := ⟨.hbm, 33, rfl⟩
abbrev main_call3_v12 : Ref sig .tc := ⟨.hbm, 34, rfl⟩
abbrev main_call3_v13 : Ref sig .tc := ⟨.hbm, 35, rfl⟩
abbrev main_call3_v14 : Ref sig .tc := ⟨.hbm, 36, rfl⟩
abbrev main_call3_cst : Ref sig .tc := ⟨.hbm, 37, rfl⟩
abbrev main_call3_v15 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10240x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10240x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10240x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  pads_S625000_S634880_098800 : S625000.Pads (![0] : Fin 1 → Nat) ![9880] ![0] S634880
  h_S_ : 0 < S_.numel
  bcast_S_S634880 : S_.BroadcastsInDim S634880 (![] : Fin 0 → Fin S634880.rank)
  bcast_S634880_S634880x1_0 : S634880.BroadcastsInDim S634880x1 (![0] : Fin 1 → Fin S634880x1.rank)
  bcast_S_S634880x1 : S_.BroadcastsInDim S634880x1 (![] : Fin 0 → Fin S634880x1.rank)
  bcast_S1_S1x1_1 : S1.BroadcastsInDim S1x1 (![1] : Fin 1 → Fin S1x1.rank)
  bcast_S1x1_S634880x1_0_1 : S1x1.BroadcastsInDim S634880x1 (![0, 1] : Fin 2 → Fin S634880x1.rank)
  reducesTo_S634880x1_S634880_d1 : S634880x1.ReducesTo [1] S634880
  bcast_S634880_S634880x128_0 : S634880.BroadcastsInDim S634880x128 (![0] : Fin 1 → Fin S634880x128.rank)
  bcast_S_S634880x128 : S_.BroadcastsInDim S634880x128 (![] : Fin 0 → Fin S634880x128.rank)
  bitsLt_bf16_f32 : FTy.bits .bf16 < FTy.bits .f32
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10240x128 : S1x128.Broadcasts S10240x128
  inb_S10240x1_S10240x1_0_0 : ∀ a, (![0, 0] : Fin 2 → Nat) a + S10240x1.size a ≤ S10240x1.size a
  h_S10240x1 : 0 < S10240x1.numel
  shapeCasts_S10240x1_S10240x1 : S10240x1.ShapeCasts S10240x1
  broadcasts_S10240x1_S10240x128 : S10240x1.Broadcasts S10240x128
  bcast_S_S50000x128 : S_.BroadcastsInDim S50000x128 (![] : Fin 0 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  gather_S50000x128_S634880x1_S634880x128_1_0_n_n_0_1_1128_wf : GatherDims.WF S50000x128 S634880x1 S634880x128 [1] [0] [] [0] [] 1 ![1, 128]
  dot_S10240x128_S128x128_S10240x128_1_0_0_1_n_n_wf : DotDims.WF S10240x128 S128x128 S10240x128 [1] [0] [0] [1] [] []
  scatter_S50000x128_S634880x1_S634880x128_1_0_0_1_wf : ScatterDims.WF S50000x128 S634880x1 S634880x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10240x128.size a ≤ S634880x128.size a
  hwx0_0 : ∀ i : grid0.Coords, EltTy.bits .bf16 = 32 ∨ (Rect.block (s := S634880x128) S10240x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10240x1.size a ≤ S634880x1.size a
  hwx0_1 : ∀ i : grid0.Coords, EltTy.bits .f32 = 32 ∨ (Rect.block (s := S634880x1) S10240x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10240x128.size a ≤ S634880x128.size a
  hwx0_4 : ∀ i : grid0.Coords, EltTy.bits .f32 = 32 ∨ (Rect.block (s := S634880x128) S10240x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S50000x128.size a
  hwx1_4 : ∀ i : grid1.Coords, EltTy.bits .f32 = 32 ∨ (Rect.block (s := S50000x128) S10000x128.size (cc1_transform_4 i) (hinb1_4 i)).WholeWords (EltTy.packing .f32)

variable [Facts₀]

def gather_S50000x128_S634880x1_S634880x128_1_0_n_n_0_1_1128 : GatherDims S50000x128 S634880x1 S634880x128 where
  offsetDims := [1]
  collapsedSliceDims := [0]
  operandBatchingDims := []
  startIndicesBatchingDims := []
  startIndexMap := [0]
  indexVectorDim := 1
  sliceSizes := ![1, 128]
  wf := gather_S50000x128_S634880x1_S634880x128_1_0_n_n_0_1_1128_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf
def scatter_S50000x128_S634880x1_S634880x128_1_0_0_1 : ScatterDims S50000x128 S634880x1 S634880x128 where
  updateWindowDims := [1]
  insertedWindowDims := [0]
  scatterDimsToOperandDims := [0]
  indexVectorDim := 1
  wf := scatter_S50000x128_S634880x1_S634880x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v4) S10240x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10240x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S10240x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S625000, .i32⟩
  | .hbm, ⟨2, _⟩ => ⟨S625000, .i32⟩
  | .hbm, ⟨3, _⟩ => ⟨S625000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S625000, .i32⟩
  | .hbm, ⟨10, _⟩ => ⟨S625000, .i1⟩
  | .hbm, ⟨11, _⟩ => ⟨S_, .i32⟩
  | .hbm, ⟨12, _⟩ => ⟨S625000, .i32⟩
  | .hbm, ⟨13, _⟩ => ⟨S625000, .i32⟩
  | .hbm, ⟨14, _⟩ => ⟨S625000, .i32⟩
  | .hbm, ⟨15, _⟩ => ⟨S625000x1, .i32⟩
  | .hbm, ⟨16, _⟩ => ⟨S625000x128, .f32⟩
  | .hbm, ⟨17, _⟩ => ⟨S625000x1, .f32⟩
  | .hbm, ⟨18, _⟩ => ⟨S625000x128, .f32⟩
  | .hbm, ⟨19, _⟩ => ⟨S1x128, .f32⟩
  | .hbm, ⟨20, _⟩ => ⟨S625000x128, .f32⟩
  | .hbm, ⟨21, _⟩ => ⟨S625000x128, .f32⟩
  | .hbm, ⟨22, _⟩ => ⟨S_, .f32⟩
  | .hbm, ⟨23, _⟩ => ⟨S625000x128, .f32⟩
  | .hbm, ⟨24, _⟩ => ⟨S625000x128, .f32⟩
  | .hbm, ⟨25, _⟩ => ⟨S625000x128, .f32⟩
  | .hbm, ⟨26, _⟩ => ⟨S625000x128, .f32⟩
  | .hbm, ⟨27, _⟩ => ⟨S_, .f32⟩
  | .hbm, ⟨28, _⟩ => ⟨S50000x128, .f32⟩
  | .hbm, ⟨29, _⟩ => ⟨S625000x1, .i32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_cst : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S625000x128 : S_.BroadcastsInDim S625000x128 (![] : Fin 0 → Fin S625000x128.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  dot_S625000x128_S128x128_S625000x128_1_0_0_1_n_n_wf : DotDims.WF S625000x128 S128x128 S625000x128 [1] [0] [0] [1] [] []
  scatter_S50000x128_S625000x1_S625000x128_1_0_0_1_wf : ScatterDims.WF S50000x128 S625000x1 S625000x128 [1] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S625000x128_S128x128_S625000x128_1_0_0_1_n_n : DotDims S625000x128 S128x128 S625000x128 where
  lhsContracting := [1]
  rhsContracting := [0]
  lhsNonContracting := [0]
  rhsNonContracting := [1]
  lhsBatch := []
  rhsBatch := []
  wf := dot_S625000x128_S128x128_S625000x128_1_0_0_1_n_n_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The graph-convolution layer as one function of its arguments, index by index, over the extended reals.

  For a node table `x : [50000, 128]`, edges `e < 625000` with a source word `src e`, a target word `tgt e` and a
  weight `nrm e`, and two dense layers `(We, be)`, `(Wn, bn)` of width 128:

    msg e k    = max (∑ l, x (row e, l) · We (l, k) + be k) 0 · nrm e          (one edge's message)
    pooled n k = ∑ over the edges e whose target word, read signed, is n, of msg e k
    out n j    = max (∑ k, pooled n k · Wn (k, j) + bn j) 0 + x (n, j)

  where `row e` is the source word read signed and clipped into the table's rows. An edge whose target word names
  no node contributes to no sum. Sums over the extended reals are sums in a commutative monoid: neither their order
  nor their grouping matters, and a term `a · 0` is `0` whatever `a` is; nothing below needs an entry to be finite.

  The second half is the one law the two programs differ by: a sum over `E + P` edges whose last `P` messages are
  zero is the sum over the first `E`.
-/
import Idealize.ShloMosaic.PureOps.Ideal
import Idealize.ShloMosaic.Lib.ValueIdx

noncomputable section

open scoped BigOperators

namespace Cert.GcnSpec

open Idealize.ShloMosaic Idealize.ShloMosaic.ValueIdx

/-- A source word read signed and clipped into the rows `0 … 49999` of the node table. -/
def clipRow (w : BitVec 32) : Fin 50000 := ⟨min w.toInt.toNat 49999, by omega⟩

/-- Every source word, read signed, names a row of the node table. -/
def SrcInRange (src : (⟨1, ![625000]⟩ : Shape).Idx → BitVec 32) : Prop :=
  ∀ e : Fin 625000, 0 ≤ (src (ix1 e)).toInt ∧ (src (ix1 e)).toInt < 50000

/-- One row through a dense layer and the rectifier: `max (∑ l, row l · W (l, k) + b k) 0`. -/
def denseRelu (row : Fin 128 → EReal) (W : (⟨2, ![128, 128]⟩ : Shape).Idx → EReal)
    (b : (⟨1, ![128]⟩ : Shape).Idx → EReal) (k : Fin 128) : EReal :=
  max (∑ l : Fin 128, row l * W (ix2 l k) + b (ix1 k)) 0

/-- The message of an edge whose source row is `r` and whose weight is `nrm`, at feature `k`. -/
def msg (x : (⟨2, ![50000, 128]⟩ : Shape).Idx → EReal) (W : (⟨2, ![128, 128]⟩ : Shape).Idx → EReal)
    (b : (⟨1, ![128]⟩ : Shape).Idx → EReal) (r : Fin 50000) (nrm : EReal) (k : Fin 128) : EReal :=
  denseRelu (fun l => x (ix2 r l)) W b k * nrm

/-- What node `n` pools at feature `k`: the messages of the edges whose target word, read signed, is `n`. -/
def pooled (x : (⟨2, ![50000, 128]⟩ : Shape).Idx → EReal) (src tgt : (⟨1, ![625000]⟩ : Shape).Idx → BitVec 32)
    (nrm : (⟨1, ![625000]⟩ : Shape).Idx → EReal) (We : (⟨2, ![128, 128]⟩ : Shape).Idx → EReal)
    (be : (⟨1, ![128]⟩ : Shape).Idx → EReal) (n : Fin 50000) (k : Fin 128) : EReal :=
  ∑ e ∈ Finset.univ.filter (fun e : Fin 625000 => (tgt (ix1 e)).toInt = (n.val : ℤ)),
    msg x We be (clipRow (src (ix1 e))) (nrm (ix1 e)) k

/-- The layer's result at node `n`, feature `j`. -/
def outAt (x : (⟨2, ![50000, 128]⟩ : Shape).Idx → EReal) (src tgt : (⟨1, ![625000]⟩ : Shape).Idx → BitVec 32)
    (nrm : (⟨1, ![625000]⟩ : Shape).Idx → EReal) (We : (⟨2, ![128, 128]⟩ : Shape).Idx → EReal)
    (be : (⟨1, ![128]⟩ : Shape).Idx → EReal) (Wn : (⟨2, ![128, 128]⟩ : Shape).Idx → EReal)
    (bn : (⟨1, ![128]⟩ : Shape).Idx → EReal) (n : Fin 50000) (j : Fin 128) : EReal :=
  denseRelu (fun k => pooled x src tgt nrm We be n k) Wn bn j + x (ix2 n j)

/-- The layer's result as an array. -/
def out (x : (⟨2, ![50000, 128]⟩ : Shape).Idx → EReal) (src tgt : (⟨1, ![625000]⟩ : Shape).Idx → BitVec 32)
    (nrm : (⟨1, ![625000]⟩ : Shape).Idx → EReal) (We : (⟨2, ![128, 128]⟩ : Shape).Idx → EReal)
    (be : (⟨1, ![128]⟩ : Shape).Idx → EReal) (Wn : (⟨2, ![128, 128]⟩ : Shape).Idx → EReal)
    (bn : (⟨1, ![128]⟩ : Shape).Idx → EReal) : (⟨2, ![50000, 128]⟩ : Shape).Idx → EReal :=
  fun i => outAt x src tgt nrm We be Wn bn (i 0) (i 1)

theorem out_ix2 (x : (⟨2, ![50000, 128]⟩ : Shape).Idx → EReal) (src tgt : (⟨1, ![625000]⟩ : Shape).Idx → BitVec 32)
    (nrm : (⟨1, ![625000]⟩ : Shape).Idx → EReal) (We : (⟨2, ![128, 128]⟩ : Shape).Idx → EReal)
    (be : (⟨1, ![128]⟩ : Shape).Idx → EReal) (Wn : (⟨2, ![128, 128]⟩ : Shape).Idx → EReal)
    (bn : (⟨1, ![128]⟩ : Shape).Idx → EReal) (n : Fin 50000) (j : Fin 128) :
    out x src tgt nrm We be Wn bn (ix2 n j) = outAt x src tgt nrm We be Wn bn n j := rfl

/-- A word in the table's range is its own clipped row. -/
theorem clipRow_val (w : BitVec 32) (h0 : 0 ≤ w.toInt) (h1 : w.toInt < 50000) : ((clipRow w).val : ℤ) = w.toInt := by
  unfold clipRow
  show ((min w.toInt.toNat 49999 : ℕ) : ℤ) = w.toInt
  omega

/-! ## Trailing zero messages -/

/-- A filtered sum over `E + P` edges whose last `P` terms vanish, and whose first `E` conditions and terms are those of
    a family over `E` edges, is that family's filtered sum. -/
theorem padded_sum_eq {E P : ℕ} (c' : Fin (E + P) → Prop) [DecidablePred c'] (f' : Fin (E + P) → EReal)
    (c : Fin E → Prop) [DecidablePred c] (f : Fin E → EReal)
    (hc : ∀ e : Fin E, c' (Fin.castAdd P e) ↔ c e) (hf : ∀ e : Fin E, f' (Fin.castAdd P e) = f e)
    (hz : ∀ p : Fin P, f' (Fin.natAdd E p) = 0) :
    ∑ e ∈ Finset.univ.filter c', f' e = ∑ e ∈ Finset.univ.filter c, f e := by
  rw [Finset.sum_filter, Finset.sum_filter, Fin.sum_univ_add]
  have h2 : ∑ p : Fin P, (if c' (Fin.natAdd E p) then f' (Fin.natAdd E p) else 0) = 0 :=
    Finset.sum_eq_zero fun p _ => by rw [hz p]; exact ite_self 0
  rw [h2, add_zero]
  refine Finset.sum_congr rfl fun e _ => ?_
  rw [hf e]
  exact if_congr (hc e) rfl rfl

end Cert.GcnSpec

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.EdgeRegion.lean ====
/-
  The edge region's output array as one function of the arrays the region finds: entry `(e, k)` is edge `e`'s
  gathered row through the dense layer and the rectifier, scaled by the edge's weight.
-/
import proofs.«400210_j1357209666173_1_alg».proof.Proof.Gen.KernelIdeal.Frame
import proofs.«400210_j1357209666173_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Edge

open Cert.KernelIdeal Cert.KernelIdeal.Gen
open Idealize.ShloMosaic Idealize.ShloMosaic.TcCoe Idealize.SL.Sem Idealize.ShloMosaic.ValueIdx
open Idealize.ShloMosaic.Pipeline (Dat)

/-! ## The body's payload at an index -/

/-- The product's left index keeps the row of the result's index … -/
theorem lhs_dot_0 (i : S10240x128.Idx) (q : dot_S10240x128_S128x128_S10240x128_1_0_0_1_n_n.contr.Idx) :
    (dot_S10240x128_S128x128_S10240x128_1_0_0_1_n_n.lhsIdx i q 0).val = (i 0).val := by
  unfold DotDims.lhsIdx
  rw [dif_neg (show ¬(0 : Fin S10240x128.rank) ∈ dot_S10240x128_S128x128_S10240x128_1_0_0_1_n_n.lhsBatch by decide), dif_pos (show (0 : Fin S10240x128.rank) ∈ dot_S10240x128_S128x128_S10240x128_1_0_0_1_n_n.lhsNonContracting by decide)]
  rfl
/-- … and takes the contracted coordinate as its column; -/
theorem lhs_dot_1 (i : S10240x128.Idx) (q : dot_S10240x128_S128x128_S10240x128_1_0_0_1_n_n.contr.Idx) :
    (dot_S10240x128_S128x128_S10240x128_1_0_0_1_n_n.lhsIdx i q 1).val = (q ⟨0, by decide⟩).val :=
  dot_S10240x128_S128x128_S10240x128_1_0_0_1_n_n.lhsIdx_val_of_single rfl i q
/-- the right index takes the contracted coordinate as its row … -/
theorem rhs_dot_0 (i : S10240x128.Idx) (q : dot_S10240x128_S128x128_S10240x128_1_0_0_1_n_n.contr.Idx) :
    (dot_S10240x128_S128x128_S10240x128_1_0_0_1_n_n.rhsIdx i q 0).val = (q ⟨0, by decide⟩).val :=
  dot_S10240x128_S128x128_S10240x128_1_0_0_1_n_n.rhsIdx_val_of_single rfl i q
/-- … and keeps the column of the result's index. -/
theorem rhs_dot_1 (i : S10240x128.Idx) (q : dot_S10240x128_S128x128_S10240x128_1_0_0_1_n_n.contr.Idx) :
    (dot_S10240x128_S128x128_S10240x128_1_0_0_1_n_n.rhsIdx i q 1).val = (i 1).val := by
  unfold DotDims.rhsIdx
  rw [dif_neg (show ¬(1 : Fin S128x128.rank) ∈ dot_S10240x128_S128x128_S10240x128_1_0_0_1_n_n.rhsBatch by decide), dif_pos (show (1 : Fin S128x128.rank) ∈ dot_S10240x128_S128x128_S10240x128_1_0_0_1_n_n.rhsNonContracting by decide)]
  rfl

/-- The block's product into a zero accumulator, at row `r` and feature `k`: the row against the matrix's column. -/
theorem matmul_apply_rk (x : FVec Ideal S10240x128 .bf16) (w : FVec Ideal S128x128 .bf16) (r : Fin 10240) (k : Fin 128) :
    matmul dot_S10240x128_S128x128_S10240x128_1_0_0_1_n_n none x w (constant (F := Ideal) S10240x128 .f32 0x00000000#32) (ix2 r k)
      = ∑ l : Fin 128, x (ix2 r l) * w (ix2 l k) := by
  simp only [matmul]
  rw [Ideal.matmul_constant_zero_apply, ← Equiv.sum_comp (ValueIdx.contrEquiv1 dot_S10240x128_S128x128_S10240x128_1_0_0_1_n_n 128 rfl rfl).symm]
  refine Finset.sum_congr rfl fun l _ => ?_
  have hl := ValueIdx.contrEquiv1_symm_val dot_S10240x128_S128x128_S10240x128_1_0_0_1_n_n 128 rfl rfl l
  have el : dot_S10240x128_S128x128_S10240x128_1_0_0_1_n_n.lhsIdx (ix2 r k) ((ValueIdx.contrEquiv1 dot_S10240x128_S128x128_S10240x128_1_0_0_1_n_n 128 rfl rfl).symm l) = ix2 r l := funext fun a => Fin.ext (by
    match a with
    | ⟨0, _⟩ => exact lhs_dot_0 _ _
    | ⟨1, _⟩ => exact (lhs_dot_1 _ _).trans hl)
  have er : dot_S10240x128_S128x128_S10240x128_1_0_0_1_n_n.rhsIdx (ix2 r k) ((ValueIdx.contrEquiv1 dot_S10240x128_S128x128_S10240x128_1_0_0_1_n_n 128 rfl rfl).symm l) = ix2 l k := funext fun a => Fin.ext (by
    match a with
    | ⟨0, _⟩ => exact (rhs_dot_0 _ _).trans hl
    | ⟨1, _⟩ => exact rhs_dot_1 _ _)
  rw [el, er]

/-- A `[a, 1]` array broadcast to `[a, b]` reads, at `(p, c)`, the operand's row `p` at its one column. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE PAYLOAD AT `(r, k)`: row `r` of the block through the dense layer and the rectifier, times the row's weight. -/
theorem pay_apply (x0 : Vec Ideal S10240x128 .bf16) (W : Vec Ideal S128x128 .f32) (b : Vec Ideal S128 .f32)
    (nrm : Vec Ideal S10240x1 .f32) (r : Fin 10240) (k : Fin 128) :
    k0_pay1 (F := Ideal) x0 W b nrm (ix2 r k)
      = Cert.GcnSpec.denseRelu (fun l => x0 (ix2 r l)) W b k * nrm (ix2 r (0 : Fin 1)) := by
  unfold k0_pay1
  simp only [shapeCast_self]
  rw [mulf_apply, maximumf_apply, addf_apply, broadcast_apply, matmul_apply_rk, broadcastTo_1b_ab_apply,
    shapeCast_a_1a_apply, broadcastTo_a1_ab_apply]
  unfold Cert.GcnSpec.denseRelu
  simp only [truncf_apply]
  rw [show (FloatOps.ofBits .f32 0x00000000#32 : Ideal .f32) = (0 : EReal) from Ideal.ofBits_zero_f32]

/-! ## The blocks a point reads, and the block it writes back -/

variable (V : (c : Dev nD) → (b : Ref sig .tc) → Buf (Elt Ideal) ((c : Thread nD τ).loc b))

/-- The gathered rows, the edge weights and the layer's matrix and bias, as the region finds them. -/
abbrev hArr (c : Dev nD) : S634880x128.Idx → EReal := V c main_v4
abbrev nArr (c : Dev nD) : S634880x1.Idx → EReal := V c main_v5
abbrev wArr (c : Dev nD) : S128x128.Idx → EReal := V c main_arg4
abbrev bArr (c : Dev nD) : S128.Idx → EReal := V c main_arg5

/-- The messages: row `e` through the dense layer and the rectifier, times the edge's weight. -/
def msgArr (c : Dev nD) : S634880x128.Idx → EReal := fun i =>
  Cert.GcnSpec.denseRelu (fun l => hArr V c (ix2 (i 0) l)) (wArr V c) (bArr V c) (i 1) * nArr V c (ix2 (i 0) 0)

theorem hz2 : (![0, 0] : Fin 2 → Nat) = fun _ => 0 := funext fun a => by fin_cases a <;> rfl
theorem hz1 : (![0] : Fin 1 → Nat) = fun _ => 0 := funext fun a => by fin_cases a; rfl

/-- The windows' index maps over the grid: the row windows are at row block `t`, column block 0; the matrix and the
    bias are whole at every point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem point_lt (t : Fin cfg0.N) : t.val < 62 := lt_of_lt_of_eq t.isLt N_0

/-- The edge that row `r` of point `t`'s block is. -/
def edgeOf (t : Fin cfg0.N) (r : Fin 10240) : Fin 634880 := ⟨t.val * 10240 + r.val, by have := point_lt t; have := r.isLt; omega⟩

/-- Row `r` of the gathered rows' block at point `t` is row `edgeOf t r` of the array. -/
theorem rows_blk (c : Dev nD) (t : Fin cfg0.N) (r : Fin 10240) (l : Fin 128) :
    (iblk0 V c 0 t : Vec Ideal S10240x128 .bf16) (ix2 r l) = hArr V c (ix2 (edgeOf t r) l) := by
  obtain ⟨e0, e1, -⟩ := idx_facts t
  unfold iblk0
  rw [View.read_apply]
  show V c main_v4 _ = V c main_v4 _
  congr 1
  funext a
  apply Fin.ext
  match a with
  | ⟨0, _⟩ => show win0_0.index t (0 : Fin 2) * 10240 + 1 * r.val = t.val * 10240 + r.val; rw [e0]; omega
  | ⟨1, _⟩ => show win0_0.index t (1 : Fin 2) * 128 + 1 * l.val = l.val; rw [e1]; omega

/-- Row `r` of the weights' block at point `t` is the weight of edge `edgeOf t r`. -/
theorem nrm_blk (c : Dev nD) (t : Fin cfg0.N) (r : Fin 10240) :
    (iblk0 V c 1 t : Vec Ideal S10240x1 .f32) (ix2 r (0 : Fin 1)) = nArr V c (ix2 (edgeOf t r) (0 : Fin 1)) := by
  obtain ⟨-, -, e0, e1, -⟩ := idx_facts t
  unfold iblk0
  rw [View.read_apply]
  show V c main_v5 _ = V c main_v5 _
  congr 1
  funext a
  apply Fin.ext
  match a with
  | ⟨0, _⟩ => show win0_1.index t (0 : Fin 2) * 10240 + 1 * r.val = t.val * 10240 + r.val; rw [e0]; omega
  | ⟨1, _⟩ => show win0_1.index t (1 : Fin 2) * 1 + 1 * 0 = 0; rw [e1]

/-- The matrix's block at every point is the matrix. -/
theorem mat_blk (c : Dev nD) (t : Fin cfg0.N) : (iblk0 V c 2 t : Vec Ideal S128x128 .f32) = wArr V c := by
  obtain ⟨-, -, -, -, e0, e1, -⟩ := idx_facts t
  funext y
  unfold iblk0
  rw [View.read_apply]
  show V c main_arg4 _ = V c main_arg4 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias's block at every point is the bias. -/
theorem bias_blk (c : Dev nD) (t : Fin cfg0.N) : (iblk0 V c 3 t : Vec Ideal S128 .f32) = bArr V c := by
  obtain ⟨-, -, -, -, -, -, e0, -⟩ := idx_facts t
  funext y
  unfold iblk0
  rw [View.read_apply]
  show V c main_arg5 _ = V c main_arg5 _
  congr 1
  funext a
  apply Fin.ext
  match a with
  | ⟨0, _⟩ => show win0_3.index t (0 : Fin 1) * 128 + 1 * (y 0).val = (y 0).val; rw [e0]; omega

/-- Entry `(r, k)` of the output's block at point `t` is entry `(edgeOf t r, k)` of the array. -/
theorem out_emb (t : Fin cfg0.N) (r : Fin 10240) (k : Fin 128) :
    ((cfg0.win 4).blk t).view.emb (ix2 r k : S10240x128.Idx) = (ix2 (edgeOf t r) k : S634880x128.Idx) := by
  obtain ⟨-, -, -, -, -, -, -, e0, e1⟩ := idx_facts t
  funext a
  apply Fin.ext
  match a with
  | ⟨0, _⟩ => show win0_4.index t (0 : Fin 2) * 10240 + 1 * r.val = t.val * 10240 + r.val; rw [e0]; omega
  | ⟨1, _⟩ => show win0_4.index t (1 : Fin 2) * 128 + 1 * k.val = k.val; rw [e1]; omega

/-- WHAT POINT `t` WRITES BACK is block `t` of the messages. -/
theorem flushed_eq (c : Dev nD) (t : Fin cfg0.N) :
    (dat0 (F := Ideal) V c).flushed 4 t = ((cfg0.win 4).blk t).view.read (Elt Ideal) (msgArr V c) := by
  show (cfg0.win 4).cut (grid0.coords t) ((dat0 (F := Ideal) V c).after 4 t) = _
  rw [after0_4]
  unfold out0_4
  rw [View.canon_unit_zero hz2]
  simp only [View.ld_unit_zero (S := S10240x128) hz2, View.ld_unit_zero (S := S128x128) hz2,
    View.ld_unit_zero (S := S128) hz1, View.ld_unit_zero (S := S10240x1) hz2]
  funext j
  obtain ⟨r, k, rfl⟩ : ∃ (r : Fin 10240) (k : Fin 128), j = ix2 r k := ⟨j 0, j 1, eq_ix2 j⟩
  rw [View.read_apply, out_emb]
  refine (pay_apply (iblk0 V c 0 t) (iblk0 V c 2 t) (iblk0 V c 3 t) (iblk0 V c 1 t) r k).trans ?_
  rw [mat_blk, bias_blk, nrm_blk]
  simp only [rows_blk]
  rfl

/-! ## The blocks cover the array -/

/-- An index of the array is in point `t`'s block iff each coordinate is in the block's range on its axis. -/
theorem mem_blk (t : Fin cfg0.N) (i : S634880x128.Idx) :
    i ∈ ((cfg0.win 4).blk t).view.set ↔ ∀ a : Fin 2, win0_4.index t a * S10240x128.size a ≤ (i a).val ∧ (i a).val < win0_4.index t a * S10240x128.size a + S10240x128.size a := by
  show i ∈ ((View.whole main_v6).slice (win0_4.rect t)).set ↔ _
  rw [View.set_slice_whole, Rect.mem_set_unit]
  exact Iff.rfl

/-- Row `e` lies in the block of point `e / 10240`. -/
theorem cover (i : S634880x128.Idx) : ∃ t : Fin cfg0.N, (cfg0.win 4).flush t = true ∧ i ∈ ((cfg0.win 4).blk t).view.set := by
  have hi0 : (i 0).val < 634880 := (i 0).isLt
  have hi1 : (i 1).val < 128 := (i 1).isLt
  have hN : cfg0.N = 62 := N_0
  obtain ⟨t, ht⟩ : ∃ t : Fin cfg0.N, t.val = (i 0).val / 10240 := ⟨⟨(i 0).val / 10240, by rw [hN]; omega⟩, rfl⟩
  obtain ⟨-, -, -, -, -, -, -, e0, e1⟩ := idx_facts t
  refine ⟨t, flush0_4 t, ?_⟩
  rw [mem_blk]
  intro a
  match a with
  | ⟨0, _⟩ => show win0_4.index t (0 : Fin 2) * 10240 ≤ (i 0).val ∧ (i 0).val < win0_4.index t (0 : Fin 2) * 10240 + 10240; rw [e0, ht]; omega
  | ⟨1, _⟩ => show win0_4.index t (1 : Fin 2) * 128 ≤ (i 1).val ∧ (i 1).val < win0_4.index t (1 : Fin 2) * 128 + 128; rw [e1]; omega

/-- THE ARRAY after the region: every entry is its edge's message. -/
theorem edge_arrAt (c : Dev nD) : (dat0 (F := Ideal) V c).arrAt 4 cfg0.N = msgArr V c := by
  exact (dat0 (F := Ideal) V c).arrAt_eq_of_cover 4 (msgArr V c) (fun t _ => flushed_eq V c t) cover

end Cert.KernelIdeal.Edge

end
-- ==== Proof.NodeRegion.lean ====
/-
  The node region's output array as one function of the arrays the region finds: entry `(n, j)` is node `n`'s pooled
  row through the dense layer and the rectifier, plus the node's own feature.

  Three parts. A block of 10000 rows goes through the body's arithmetic entry by entry: the block product into the zero
  accumulator is, at `(r, k)`, the sum over `l` of the block's entry `(r, l)` times the matrix's entry `(l, k)` (the
  change of format before the product is the identity over the extended reals), the bias is read at the column, the
  rectifier is the maximum with zero, and the node's own block is added. Then the blocks are read where they sit: the
  three row-blocked arrays have their block `t` at rows `10000 t … 10000 t + 9999`, the matrix and the bias are whole at
  every point, so what point `t` writes back is block `t` of one function of the array's index. Last, row `n` lies in
  the block of point `n / 10000`, so the five blocks fill the array and the array ends holding that function.
-/
import proofs.«400210_j1357209666173_1_alg».proof.Proof.Gen.KernelIdeal.Frame
import proofs.«400210_j1357209666173_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Node

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## One block through the body's arithmetic, at an index -/

/-- The product's left operand is read at the output's row … -/
theorem node_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and at the summation index; -/
theorem node_lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right operand at the summation index … -/
theorem node_rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and at the output's column. -/
theorem node_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's product into the zero accumulator, at row `r` and column `k`: the block's row `r` against the matrix's
    column `k`, the summation index running over `Fin 128`. -/
theorem node_matmul_apply {φ₁ φ₂ : FTy} (p : FVec Ideal S10000x128 φ₁) (W : FVec Ideal S128x128 φ₂) (r : Fin 10000) (k : Fin 128) :
    matmul (F := Ideal) dot_S10000x128_S128x128_S10000x128_1_0_0_1_n_n none p W (constant (F := Ideal) S10000x128 .f32 0x00000000#32) (ix2 r k)
      = ∑ l : Fin 128, p (ix2 r l) * W (ix2 l k) := by
  show FloatOps.matmul dot_S10000x128_S128x128_S10000x128_1_0_0_1_n_n none p W (constant (F := Ideal) S10000x128 .f32 0x00000000#32) (ix2 r k) = _
  rw [Ideal.matmul_constant_zero_apply, ← Equiv.sum_comp (ValueIdx.contrEquiv1 dot_S10000x128_S128x128_S10000x128_1_0_0_1_n_n 128 rfl rfl).symm]
  refine Finset.sum_congr rfl fun l _ => ?_
  have hl := ValueIdx.contrEquiv1_symm_val dot_S10000x128_S128x128_S10000x128_1_0_0_1_n_n 128 rfl rfl l
  have el : dot_S10000x128_S128x128_S10000x128_1_0_0_1_n_n.lhsIdx (ix2 r k) ((ValueIdx.contrEquiv1 dot_S10000x128_S128x128_S10000x128_1_0_0_1_n_n 128 rfl rfl).symm l) = ix2 r l := funext fun a => Fin.ext (by
    match a with
    | ⟨0, _⟩ => exact node_lhs_row _ _
    | ⟨1, _⟩ => exact (node_lhs_contr _ _).trans hl)
  have er : dot_S10000x128_S128x128_S10000x128_1_0_0_1_n_n.rhsIdx (ix2 r k) ((ValueIdx.contrEquiv1 dot_S10000x128_S128x128_S10000x128_1_0_0_1_n_n 128 rfl rfl).symm l) = ix2 l k := funext fun a => Fin.ext (by
    match a with
    | ⟨0, _⟩ => exact (node_rhs_contr _ _).trans hl
    | ⟨1, _⟩ => exact node_rhs_col _ _)
  rw [el, er]

/-- The bias, cast to one row and broadcast over the block's rows, reads the bias at the column. -/
theorem node_bias_apply (b : Vec Ideal S128 .f32) (r : Fin 10000) (k : Fin 128) :
    broadcastTo S10000x128 (shapeCast S1x128 b shapeCasts_S128_S1x128) broadcasts_S1x128_S10000x128 (ix2 r k) = b (ix1 k) :=
  (broadcastTo_1b_ab_apply _ broadcasts_S1x128_S10000x128 r k).trans (shapeCast_a_1a_apply b shapeCasts_S128_S1x128 0 k)

/-- THE BODY'S ARITHMETIC AT AN INDEX: for a block `p` of pooled rows, the matrix `W`, the bias `b` and the nodes' own
    block `x`, entry `(r, k)` is `max (∑ l, p (r, l) · W (l, k) + b k) 0 + x (r, k)`. -/
theorem node_payload_apply (p : Vec Ideal S10000x128 .f32) (W : Vec Ideal S128x128 .f32) (b : Vec Ideal S128 .f32)
    (x : Vec Ideal S10000x128 .f32) (r : Fin 10000) (k : Fin 128) :
    k1_pay1 (F := Ideal) p W b x (ix2 r k) = Cert.GcnSpec.denseRelu (fun l => p (ix2 r l)) W b k + x (ix2 r k) := by
  unfold k1_pay1 Cert.GcnSpec.denseRelu
  show max (matmul (F := Ideal) dot_S10000x128_S128x128_S10000x128_1_0_0_1_n_n none
          (truncf .bf16 (shapeCast S10000x128 p shapeCasts_S10000x128_S10000x128) bitsLt_bf16_f32) (truncf .bf16 W bitsLt_bf16_f32)
          (constant (F := Ideal) S10000x128 .f32 0x00000000#32) (ix2 r k)
        + broadcastTo S10000x128 (shapeCast S1x128 b shapeCasts_S128_S1x128) broadcasts_S1x128_S10000x128 (ix2 r k))
      (Ideal.ofBits .f32 0x00000000#32) + x (ix2 r k) = _
  rw [node_matmul_apply, node_bias_apply, Ideal.ofBits_zero_f32, shapeCast_self]
  rfl

variable (V : (c : Dev nD) → (b : Ref sig .tc) → Buf (Elt Ideal) ((c : Thread nD τ).loc b))

/-- The pooled rows, the node table and the layer's matrix and bias, as the region finds them. -/
abbrev pArr (c : Dev nD) : S50000x128.Idx → EReal := V c main_v9
abbrev xArr (c : Dev nD) : S50000x128.Idx → EReal := V c main_arg0
abbrev wArr (c : Dev nD) : S128x128.Idx → EReal := V c main_arg6
abbrev bArr (c : Dev nD) : S128.Idx → EReal := V c main_arg7

/-- The result: row `n` of the pooled array through the dense layer and the rectifier, plus the node's feature. -/
def outArr (c : Dev nD) : S50000x128.Idx → EReal := fun i =>
  Cert.GcnSpec.denseRelu (fun k => pArr V c (ix2 (i 0) k)) (wArr V c) (bArr V c) (i 1) + xArr V c i

/-! ## The blocks the region's points read -/

theorem node_zero2 : (![0, 0] : Fin 2 → Nat) = fun _ => 0 := funext fun a => by fin_cases a <;> rfl
theorem node_zero1 : (![0] : Fin 1 → Nat) = fun _ => 0 := funext fun a => by fin_cases a <;> rfl

/-- The index maps at point `t`: the three row-blocked windows sit at row block `t`, column block 0; the matrix's and the
    bias's windows at block 0 on every axis. -/
theorem node_index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Entry `(r, l)` of point `t`'s block of the pooled rows is the array's entry `(10000 t + r, l)`. -/
theorem node_pooled_block_apply (c : Dev nD) (t : Fin cfg1.N) (r : Fin 10000) (l : Fin 128) (n : Fin 50000)
    (hn : n.val = 10000 * t.val + r.val) :
    (iblk1 V c 0 t : Vec Ideal S10000x128 .f32) (ix2 r l) = pArr V c (ix2 n l) := by
  obtain ⟨e0, e1, -⟩ := node_index_maps t
  show V c main_v9 (((cfg1.win 0).blk t).view.emb (ix2 r l)) = V c main_v9 (ix2 n l)
  congr 1
  funext a; apply Fin.ext
  match a with
  | ⟨0, _⟩ => show win1_0.index t (0 : Fin 2) * 10000 + 1 * r.val = n.val; omega
  | ⟨1, _⟩ => show win1_0.index t (1 : Fin 2) * 128 + 1 * l.val = l.val; omega

/-- The same of the node table. -/
theorem node_table_block_apply (c : Dev nD) (t : Fin cfg1.N) (r : Fin 10000) (l : Fin 128) (n : Fin 50000)
    (hn : n.val = 10000 * t.val + r.val) :
    (iblk1 V c 1 t : Vec Ideal S10000x128 .f32) (ix2 r l) = xArr V c (ix2 n l) := by
  obtain ⟨-, -, e0, e1, -⟩ := node_index_maps t
  show V c main_arg0 (((cfg1.win 1).blk t).view.emb (ix2 r l)) = V c main_arg0 (ix2 n l)
  congr 1
  funext a; apply Fin.ext
  match a with
  | ⟨0, _⟩ => show win1_1.index t (0 : Fin 2) * 10000 + 1 * r.val = n.val; omega
  | ⟨1, _⟩ => show win1_1.index t (1 : Fin 2) * 128 + 1 * l.val = l.val; omega

/-- Every point's block of the matrix is the matrix. -/
theorem node_matrix_block_eq (c : Dev nD) (t : Fin cfg1.N) : (iblk1 V c 2 t : Vec Ideal S128x128 .f32) = wArr V c := by
  obtain ⟨-, -, -, -, e0, e1, -⟩ := node_index_maps t
  funext y
  show V c main_arg6 (((cfg1.win 2).blk t).view.emb y) = V c main_arg6 y
  congr 1
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Every point's block of the bias is the bias. -/
theorem node_bias_block_eq (c : Dev nD) (t : Fin cfg1.N) : (iblk1 V c 3 t : Vec Ideal S128 .f32) = bArr V c := by
  obtain ⟨-, -, -, -, -, -, e0, -⟩ := node_index_maps t
  funext y
  show V c main_arg7 (((cfg1.win 3).blk t).view.emb y) = V c main_arg7 y
  congr 1
  funext a; apply Fin.ext
  match a with
  | ⟨0, _⟩ => show win1_3.index t (0 : Fin 1) * 128 + 1 * (y 0).val = (y 0).val; omega

/-! ## What a point writes back -/

/-- WHAT POINT `t` WRITES BACK is block `t` of `outArr`: the body's one store fills the output's buffer with its
    arithmetic of the four input blocks, entry `(r, k)` of which is `outArr` at `(10000 t + r, k)`. -/
theorem node_flushed_eq (c : Dev nD) (t : Fin cfg1.N) :
    (dat1 (F := Ideal) V c).flushed 4 t = ((cfg1.win 4).blk t).view.read (Elt Ideal) (outArr V c) := by
  show (cfg1.win 4).cut (grid1.coords t) ((dat1 (F := Ideal) V c).after 4 t) = _
  rw [after1_4]
  unfold out1_4
  rw [View.canon_unit_zero node_zero2]
  simp only [View.ld_unit_zero (S := S10000x128) node_zero2, View.ld_unit_zero (S := S128x128) node_zero2,
    View.ld_unit_zero (S := S128) node_zero1]
  obtain ⟨-, -, -, -, -, -, -, e0, e1⟩ := node_index_maps t
  have hN : cfg1.N = 5 := N_1
  have ht : t.val < 5 := hN ▸ t.isLt
  funext j
  have hj0 : (j 0).val < 10000 := (j 0).isLt
  have hj1 : (j 1).val < 128 := (j 1).isLt
  have hn : 10000 * t.val + (j 0).val < 50000 := by omega
  have hx : (cfg1.win 4).xinj (grid1.coords t) j = ix2 (⟨(j 0).val, hj0⟩ : Fin 10000) (⟨(j 1).val, hj1⟩ : Fin 128) :=
    funext fun a => by match a with | ⟨0, _⟩ => rfl | ⟨1, _⟩ => rfl
  have hi : ((cfg1.win 4).blk t).view.emb j
      = ix2 (⟨10000 * t.val + (j 0).val, hn⟩ : Fin 50000) (⟨(j 1).val, hj1⟩ : Fin 128) := by
    funext a; apply Fin.ext
    match a with
    | ⟨0, _⟩ => show win1_4.index t (0 : Fin 2) * 10000 + 1 * (j 0).val = 10000 * t.val + (j 0).val; omega
    | ⟨1, _⟩ => show win1_4.index t (1 : Fin 2) * 128 + 1 * (j 1).val = (j 1).val; omega
  show k1_pay1 (F := Ideal) (iblk1 V c 0 t) (iblk1 V c 2 t) (iblk1 V c 3 t) (iblk1 V c 1 t) ((cfg1.win 4).xinj (grid1.coords t) j)
      = outArr V c (((cfg1.win 4).blk t).view.emb j)
  rw [hx, hi, node_payload_apply]
  unfold outArr
  rw [node_matrix_block_eq, node_bias_block_eq,
    node_table_block_apply V c t ⟨(j 0).val, hj0⟩ ⟨(j 1).val, hj1⟩ ⟨10000 * t.val + (j 0).val, hn⟩ rfl]
  congr 2
  funext l
  exact node_pooled_block_apply V c t ⟨(j 0).val, hj0⟩ l ⟨10000 * t.val + (j 0).val, hn⟩ rfl

/-! ## The blocks fill the array -/

/-- An index of the array is in point `t`'s block iff each coordinate is in the block's range on its axis. -/
theorem node_mem_blk (t : Fin cfg1.N) (i : S50000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v10).slice (win1_4.rect t)).set ↔ _
  rw [View.set_slice_whole, Rect.mem_set_unit]
  exact Iff.rfl

/-- Row `n` lies in the block of point `n / 10000`, and every point writes its block back. -/
theorem node_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨-, -, -, -, -, -, -, e0, e1⟩ := node_index_maps t
  refine ⟨t, flush1_4 t, ?_⟩
  rw [node_mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

theorem node_arrAt (c : Dev nD) : (dat1 (F := Ideal) V c).arrAt 4 cfg1.N = outArr V c :=
  (dat1 (F := Ideal) V c).arrAt_eq_of_cover 4 (outArr V c) (fun t _ => node_flushed_eq V c t) node_cover

end Cert.KernelIdeal.Node

end
-- ==== Proof.HostBefore.lean ====
/-
  What the host computes before the edge region, read at an index: the gathered rows of the node table, the padded
  edge weights and the padded target words. Edge `e < 625000` sits at position `e` of each padded array; the 9880
  positions after them carry weight zero.
-/
import proofs.«400210_j1357209666173_1_alg».proof.Proof.Gen.KernelIdeal.Frame
import proofs.«400210_j1357209666173_1_alg».proof.Proof.Spec
import proofs.«400210_j1357209666173_1_alg».proof.Proof.LibGS
import Idealize.ShloMosaic.Lib.KernelVsHost
import Idealize.ShloMosaic.Lib.Pipeline.Value
import Idealize.ShloMosaic.Lib.StableHlo.Run
import Idealize.ShloMosaic.PureOps.Ideal.Laws

set_option maxRecDepth 16384

noncomputable section

namespace Cert.KernelIdeal.HostBefore

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The launch contents of the node table, the source and target words and the edge weights. -/
abbrev xA (c : Dev nD) : S50000x128.Idx → EReal := m ((c.tc : Thread nD τ).loc main_arg0)
abbrev srcA (c : Dev nD) : S625000.Idx → BitVec 32 := m ((c.tc : Thread nD τ).loc main_arg1)
abbrev tgtA (c : Dev nD) : S625000.Idx → BitVec 32 := m ((c.tc : Thread nD τ).loc main_arg2)
abbrev nrmA (c : Dev nD) : S625000.Idx → EReal := m ((c.tc : Thread nD τ).loc main_arg3)

/-! ## The padded arrays as terms of the launch contents, and a padded vector read at a position -/

/-- The padded target words as a term of the launch contents. -/
theorem v1_eq (c : Dev nD) :
    (V8 m ρ c main_v1 : S634880.Idx → BitVec 32)
      = pad S634880 ![0] ![9880] ![0] (tgtA m c) (constantI S_ 32 0#32) pads_S625000_S634880_098800 h_S_ := by
  dsimp only [V8, W8, W7, W6, W5, W4, W3, W2, W1, W0]
  simp only [hostOps0_7, hostOps0_6, hostOps0_5, hostOps0_4, hostOps0_3, hostOps0_2, hostOps0_1, hostOps0]
  after_results
  rfl

/-- The padded weights, as a column, as a term of the launch contents. -/
theorem v5_eq (c : Dev nD) :
    (V8 m ρ c main_v5 : S634880x1.Idx → EReal)
      = broadcastInDim S634880x1 ![0] bcast_S634880_S634880x1_0
          (pad S634880 ![0] ![9880] ![0] (nrmA m c) (constant (F := Ideal) S_ .f32 0x00000000#32) pads_S625000_S634880_098800 h_S_) := by
  dsimp only [V8, W8, W7, W6, W5, W4, W3, W2, W1, W0]
  simp only [hostOps0_7, hostOps0_6, hostOps0_5, hostOps0_4, hostOps0_3, hostOps0_2, hostOps0_1, hostOps0]
  after_results
  rfl

/-- A padded vector read at an edge's position is the vector at the edge. -/
theorem pad_edge {α : Type} (x : S625000.Idx → α) (v : S_.Idx → α) (e : Fin 625000) :
    pad S634880 ![0] ![9880] ![0] x v pads_S625000_S634880_098800 h_S_ (ix1 (Fin.castAdd 9880 e)) = x (ix1 e) :=
  pad_apply_of_inside _ _ _ _ _ _ _ (ix1 (Fin.castAdd 9880 e)) (ix1 e) (fun a => match a with
    | ⟨0, _⟩ => by show e.val = 0 + e.val * (0 + 1); omega)

/-- A padded vector read after the edges is the padding value. -/
theorem pad_tail {α : Type} (x : S625000.Idx → α) (v : S_.Idx → α) (p : Fin 9880) :
    pad S634880 ![0] ![9880] ![0] x v pads_S625000_S634880_098800 h_S_ (ix1 (Fin.natAdd 625000 p)) = v (Shape.Idx.first h_S_) :=
  pad_apply_of_not_inside _ _ _ _ _ _ _ (ix1 (Fin.natAdd 625000 p)) (0 : Fin 1) (by
    show ¬(0 ≤ 625000 + p.val ∧ (625000 + p.val - 0) % (0 + 1) = 0 ∧ (625000 + p.val - 0) / (0 + 1) < 625000)
    omega)

/-- A vector as a column, read at a row. -/
theorem col_apply {α : Type} (y : S634880.Idx → α) (r : Fin 634880) :
    broadcastInDim S634880x1 ![0] bcast_S634880_S634880x1_0 y (ix2 r 0) = y (ix1 r) :=
  broadcastInDim_apply _ bcast_S634880_S634880x1_0 y (ix2 r 0) (ix1 r) (fun a => match a with
    | ⟨0, _⟩ => by show r.val = if (634880 : Nat) = 1 then 0 else r.val; rw [if_neg (by decide)])

/-! ## The row lookup, as the host computes it from a table and a vector of padded words -/

/-- A word below zero moved up by the table's row count, any other word kept. -/
def normIdx (w : S634880.Idx → BitVec 32) : S634880.Idx → BitVec 32 :=
  select (cmpi .slt w (broadcastInDim S634880 ![] bcast_S_S634880 (constantI S_ 32 0#32)))
    (addi w (broadcastInDim S634880 ![] bcast_S_S634880 (constantI S_ 32 50000#32))) w

/-- The moved words as a column. -/
def idxCol (w : S634880.Idx → BitVec 32) : S634880x1.Idx → BitVec 32 :=
  broadcastInDim S634880x1 ![0] bcast_S634880_S634880x1_0 (normIdx w)

/-- The test `0 ≤ word ≤ 49999` of each word of a column, before it is folded along the column's one entry. -/
def inRangeCol (col : S634880x1.Idx → BitVec 32) : S634880x1.Idx → BitVec 1 :=
  andi (cmpi .sge col (broadcastInDim S634880x1 ![] bcast_S_S634880x1 (constantI S_ 32 0#32)))
    (cmpi .sle col (broadcastInDim S634880x1 ![0, 1] bcast_S1x1_S634880x1_0_1
      (broadcastInDim S1x1 ![1] bcast_S1_S1x1_1 (constantI S1 32 49999#32))))

/-- The test folded along the column's one entry. -/
def inRange (col : S634880x1.Idx → BitVec 32) : S634880.Idx → BitVec 1 :=
  Host.reduce IntOp.andi (inRangeCol col) (constantI S_ 1 1#1) reducesTo_S634880x1_S634880_d1 h_S_

/-- The rows looked up at a column of words under a test: the table's row where the test holds, the fill value elsewhere. -/
def pickRows (x : S50000x128.Idx → EReal) (col : S634880x1.Idx → BitVec 32) (ok : S634880.Idx → BitVec 1) :
    S634880x128.Idx → EReal :=
  select (broadcastInDim S634880x128 ![0] bcast_S634880_S634880x128_0 ok)
    (Host.gather gather_S50000x128_S634880x1_S634880x128_1_0_n_n_0_1_1128 x col)
    (broadcastInDim S634880x128 ![] bcast_S_S634880x128 (constant (F := Ideal) S_ .f32 0x7FC00000#32))

/-- The looked-up rows: the table's row at each moved word that passes the test, the fill value elsewhere. -/
def takeRows (x : S50000x128.Idx → EReal) (w : S634880.Idx → BitVec 32) : S634880x128.Idx → EReal :=
  pickRows x (idxCol w) (inRange (idxCol w))

/-! ## The lookup's stretch of host operations, in three parts -/

/-- Operations run one after the other: the later ones start from what the earlier ones leave. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The operations that move the words and make them a column … -/
abbrev opsA : List (HloOp τ sig (Elt Ideal)) := (hostOps0_6 (F := Ideal)).take 8
/-- … those that test the column … -/
abbrev opsB : List (HloOp τ sig (Elt Ideal)) := ((hostOps0_6 (F := Ideal)).drop 8).take 10
/-- … and those that look the rows up and fill in where the test fails. -/
abbrev opsC : List (HloOp τ sig (Elt Ideal)) := ((hostOps0_6 (F := Ideal)).drop 8).drop 10

/-- The lookup's operations are the three parts in order. -/
theorem ops_split : (hostOps0_6 : List (HloOp τ sig (Elt Ideal))) = opsA ++ (opsB ++ opsC) := by
  rw [opsB, opsC, List.take_append_drop, opsA, List.take_append_drop]

/-- The first part leaves the column of the moved words it started from … -/
theorem partA_col (V : Valuation τ sig (Elt Ideal)) :
    (StableHlo.after opsA V (Proc.devRef .tc main_call3_v5) : S634880x1.Idx → BitVec 32)
      = idxCol (V (Proc.devRef .tc main_v0)) := by
  simp only [opsA, hostOps0_6, List.take_succ_cons, List.take_zero]
  after_results_simp
  rfl

/-- … and does not change the table. -/
theorem partA_table (V : Valuation τ sig (Elt Ideal)) :
    StableHlo.after opsA V (Proc.devRef .tc main_arg0) = V (Proc.devRef .tc main_arg0) := by
  simp only [opsA, hostOps0_6, List.take_succ_cons, List.take_zero]
  after_results_simp

section
attribute [local irreducible] Host.reduce

/-- The testing part leaves the folded test of the column it started from … -/
theorem partB_ok (V : Valuation τ sig (Elt Ideal)) :
    (StableHlo.after opsB V (Proc.devRef .tc main_call3_v12) : S634880.Idx → BitVec 1)
      = inRange (V (Proc.devRef .tc main_call3_v5)) := by
  simp only [opsB, hostOps0_6, List.drop_succ_cons, List.drop_zero, List.take_succ_cons, List.take_zero]
  after_results_simp
  rfl

end

/-- … and changes neither the column … -/
theorem partB_col (V : Valuation τ sig (Elt Ideal)) :
    StableHlo.after opsB V (Proc.devRef .tc main_call3_v5) = V (Proc.devRef .tc main_call3_v5) := by
  simp only [opsB, hostOps0_6, List.drop_succ_cons, List.drop_zero, List.take_succ_cons, List.take_zero]
  after_results_simp

/-- … nor the table. -/
theorem partB_table (V : Valuation τ sig (Elt Ideal)) :
    StableHlo.after opsB V (Proc.devRef .tc main_arg0) = V (Proc.devRef .tc main_arg0) := by
  simp only [opsB, hostOps0_6, List.drop_succ_cons, List.drop_zero, List.take_succ_cons, List.take_zero]
  after_results_simp

/-- The last part looks the rows up at the column and the folded test it started from. -/
theorem partC_rows (V : Valuation τ sig (Elt Ideal)) :
    (StableHlo.after opsC V (Proc.devRef .tc main_v3) : S634880x128.Idx → EReal)
      = pickRows (V (Proc.devRef .tc main_arg0)) (V (Proc.devRef .tc main_call3_v5)) (V (Proc.devRef .tc main_call3_v12)) := by
  simp only [opsC, hostOps0_6, List.drop_succ_cons, List.drop_zero]
  after_results_simp
  rfl

/-- The lookup's stretch of host operations leaves `takeRows` of the table and the padded words it started from. -/
theorem take_stretch (V : Valuation τ sig (Elt Ideal)) :
    (StableHlo.after hostOps0_6 V (Proc.devRef .tc main_v3) : S634880x128.Idx → EReal)
      = takeRows (V (Proc.devRef .tc main_arg0)) (V (Proc.devRef .tc main_v0)) := by
  rw [ops_split, after_append, after_append, partC_rows, partB_table, partB_col, partB_ok, partA_table, partA_col]
  rfl

/-- The last stretch before the edge region narrows the looked-up rows' format, which changes no extended real. -/
theorem narrow_stretch (V : Valuation τ sig (Elt Ideal)) :
    (StableHlo.after hostOps0_7 V (Proc.devRef .tc main_v4) : S634880x128.Idx → EReal)
      = (V (Proc.devRef .tc main_v3) : S634880x128.Idx → EReal) := by
  simp only [hostOps0_7]
  after_results
  rfl

/-- When the lookup starts, the node table is as launched … -/
theorem w6_arg0 (c : Dev nD) : (W6 m ρ c (Proc.devRef .tc main_arg0) : S50000x128.Idx → EReal) = xA m c := by
  dsimp only [W6, W5, W4, W3, W2, W1, W0]
  simp only [hostOps0_5, hostOps0_4, hostOps0_3, hostOps0_2, hostOps0_1, hostOps0]
  after_results

/-- … and the padded source words are the source words followed by zeros. -/
theorem w6_v0 (c : Dev nD) :
    (W6 m ρ c (Proc.devRef .tc main_v0) : S634880.Idx → BitVec 32)
      = pad S634880 ![0] ![9880] ![0] (srcA m c) (constantI S_ 32 0#32) pads_S625000_S634880_098800 h_S_ := by
  dsimp only [W6, W5, W4, W3, W2, W1, W0]
  simp only [hostOps0_5, hostOps0_4, hostOps0_3, hostOps0_2, hostOps0_1, hostOps0]
  after_results
  rfl

/-- The gathered rows as a term of the launch contents. -/
theorem v4_eq (c : Dev nD) :
    (V8 m ρ c main_v4 : S634880x128.Idx → EReal)
      = takeRows (xA m c)
          (pad S634880 ![0] ![9880] ![0] (srcA m c) (constantI S_ 32 0#32) pads_S625000_S634880_098800 h_S_) := by
  dsimp only [V8, W8, W7]
  rw [narrow_stretch, take_stretch, w6_arg0, w6_v0]

/-! ## The row lookup read at an edge whose word names a row -/

/-- A fold of one-bit words by `and` from `1` over words that are all `1` is `1`. -/
theorem fold_andi_one {ι : Type} [DecidableEq ι] (s : Finset ι) (f : ι → BitVec 1) (hf : ∀ k ∈ s, f k = 1#1) :
    s.fold IntOp.andi 1#1 f = 1#1 := by
  induction s using Finset.induction_on with
  | empty => rfl
  | insert a s ha ih =>
    rw [Finset.fold_insert ha, hf a (Finset.mem_insert_self _ _), ih fun k hk => hf k (Finset.mem_insert_of_mem hk)]
    rfl

/-- The column's second axis is the one the test is folded along. -/
theorem colReduces : S634880x1.Reduces [1] S634880 := by decide

section AtIndex
variable (x : S50000x128.Idx → EReal) (w : S634880.Idx → BitVec 32) (r : Fin 634880)
  (h0 : 0 ≤ (w (ix1 r)).toInt) (h1 : (w (ix1 r)).toInt < 50000)
include h0 h1

/-- A word that is not negative is kept. -/
theorem normIdx_apply : normIdx w (ix1 r) = w (ix1 r) := by
  show Scalar.select (IntOp.cmpi .slt (w (ix1 r)) 0#32) (IntOp.addi (w (ix1 r)) 50000#32) (w (ix1 r)) = w (ix1 r)
  have hz : IntOp.cmpi .slt (w (ix1 r)) 0#32 = 0#1 := eq_zero_of_ne_one fun hlt => by
    rw [IntOp.cmpi_slt, show (0#32 : BitVec 32).toInt = 0 from by decide] at hlt
    omega
  rw [hz, select_zero]

/-- So the column's entry at the edge is the word itself. -/
theorem idxCol_apply : idxCol w (ix2 r 0) = w (ix1 r) :=
  (col_apply (normIdx w) r).trans (normIdx_apply w r h0 h1)

/-- A word that names a row passes the test … -/
theorem inRangeCol_apply : inRangeCol (idxCol w) (ix2 r 0) = 1#1 := by
  show IntOp.andi (IntOp.cmpi .sge (idxCol w (ix2 r 0)) 0#32) (IntOp.cmpi .sle (idxCol w (ix2 r 0)) 49999#32) = 1#1
  rw [idxCol_apply w r h0 h1]
  refine IntOp.andi_eq_one.2 ⟨IntOp.cmpi_sge.2 ?_, IntOp.cmpi_sle.2 ?_⟩
  · rw [show (0#32 : BitVec 32).toInt = 0 from by decide]; exact h0
  · rw [show (49999#32 : BitVec 32).toInt = 49999 from by decide]; omega

/-- … also once the test is folded along the column's one entry. -/
theorem inRange_apply : inRange (idxCol w) (ix1 r) = 1#1 := by
  unfold inRange
  rw [Host.reduce_eq_fold_single IntOp.andi (inRangeCol (idxCol w)) (constantI S_ 1 1#1) reducesTo_S634880x1_S634880_d1
    colReduces h_S_ (ix1 r)]
  refine fold_andi_one _ _ fun k _ => ?_
  have hl : colReduces.lift (ix1 r) k = ix2 r 0 := by
    funext a
    match a with
    | ⟨0, _⟩ => rfl
    | ⟨1, _⟩ =>
      refine Fin.ext ?_
      have hk : k.val < 1 := k.isLt
      show k.val = 0
      omega
  show inRangeCol (idxCol w) (colReduces.lift (ix1 r) k) = 1#1
  rw [hl]
  exact inRangeCol_apply w r h0 h1

/-- The looked-up row of such an edge is the table's row at its word. -/
theorem takeRows_apply (l : Fin 128) :
    takeRows x w (ix2 r l) = x (ix2 (Cert.GcnSpec.clipRow (w (ix1 r))) l) := by
  unfold takeRows pickRows
  rw [select_apply, broadcastInDim_apply _ bcast_S634880_S634880x128_0 (inRange (idxCol w)) (ix2 r l) (ix1 r) (fun a => match a with
    | ⟨0, _⟩ => by show r.val = if (634880 : Nat) = 1 then 0 else r.val; rw [if_neg (by decide)]),
    inRange_apply w r h0 h1, select_one]
  unfold gather_S50000x128_S634880x1_S634880x128_1_0_n_n_0_1_1128
  rw [Cert.LibGS.gather_rows_apply (by decide) _ x (idxCol w) r l]
  simp only [idxCol_apply w r h0 h1]
  rfl

end AtIndex

/-! ## The interface -/

/-- Edge `e`'s gathered row is the node table's row at its source word, when that word is a row. -/
theorem gathered_edge (c : Dev nD) (h : Cert.GcnSpec.SrcInRange (srcA m c)) (e : Fin 625000) (l : Fin 128) :
    (V8 m ρ c main_v4 : S634880x128.Idx → EReal) (ix2 (Fin.castAdd 9880 e) l)
      = xA m c (ix2 (Cert.GcnSpec.clipRow (srcA m c (ix1 e))) l) := by
  have hw := pad_edge (srcA m c) (constantI S_ 32 0#32) e
  rw [v4_eq, takeRows_apply (xA m c) _ (Fin.castAdd 9880 e) (by rw [hw]; exact (h e).1) (by rw [hw]; exact (h e).2) l, hw]

/-- Edge `e`'s weight sits at position `e` of the padded weights … -/
theorem norm_edge (c : Dev nD) (e : Fin 625000) :
    (V8 m ρ c main_v5 : S634880x1.Idx → EReal) (ix2 (Fin.castAdd 9880 e) 0) = nrmA m c (ix1 e) := by
  rw [v5_eq, col_apply, pad_edge]

/-- … and the positions after the edges carry weight zero. -/
theorem norm_pad (c : Dev nD) (p : Fin 9880) :
    (V8 m ρ c main_v5 : S634880x1.Idx → EReal) (ix2 (Fin.natAdd 625000 p) 0) = (0 : EReal) := by
  rw [v5_eq, col_apply, pad_tail]
  exact Ideal.ofBits_zero_f32

/-- Edge `e`'s target word sits at position `e` of the padded target words. -/
theorem tgt_edge (c : Dev nD) (e : Fin 625000) :
    (V8 m ρ c main_v1 : S634880.Idx → BitVec 32) (ix1 (Fin.castAdd 9880 e)) = tgtA m c (ix1 e) := by
  rw [v1_eq, pad_edge]

end Cert.KernelIdeal.HostBefore

end
-- ==== Proof.KernelArgs.lean ====
/-
  What each region finds in the arguments' buffers, and the pooled array as the host's scatter of the messages.

  No host operation and no region writes an argument, so each region reads the launch contents; between the regions the
  host scatters the edge region's output, at the padded target words, onto zeros.
-/
import proofs.«400210_j1357209666173_1_alg».proof.Proof.Gen.KernelIdeal.Frame
import proofs.«400210_j1357209666173_1_alg».proof.Proof.Spec
import proofs.«400210_j1357209666173_1_alg».proof.Proof.LibGS
import proofs.«400210_j1357209666173_1_alg».proof.Proof.EdgeRegion
import Idealize.ShloMosaic.Lib.StableHlo.Run
import Idealize.ShloMosaic.Lib.Pipeline.Value

set_option maxRecDepth 16384

noncomputable section

namespace Cert.KernelIdeal.Layer

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments as each region finds them -/

theorem node_x (c : Dev nD) : V10 m ρ c main_arg0 = m ((c : Thread nD τ).loc main_arg0) :=
  ((W11_arr m ρ c 1).trans (((dat1 (V10 m ρ) c).arrAt_in 1 rfl _).trans (A_eq1 (V10 m ρ) c 1))).symm.trans (W11_main_arg0 m ρ c)

theorem node_w (c : Dev nD) : V10 m ρ c main_arg6 = m ((c : Thread nD τ).loc main_arg6) :=
  ((W11_arr m ρ c 2).trans (((dat1 (V10 m ρ) c).arrAt_in 2 rfl _).trans (A_eq1 (V10 m ρ) c 2))).symm.trans (W11_main_arg6 m ρ c)

theorem node_b (c : Dev nD) : V10 m ρ c main_arg7 = m ((c : Thread nD τ).loc main_arg7) :=
  ((W11_arr m ρ c 3).trans (((dat1 (V10 m ρ) c).arrAt_in 3 rfl _).trans (A_eq1 (V10 m ρ) c 3))).symm.trans (W11_main_arg7 m ρ c)

theorem edge_w (c : Dev nD) : V8 m ρ c main_arg4 = m ((c : Thread nD τ).loc main_arg4) :=
  calc V8 m ρ c main_arg4
    _ = W9 m ρ c (Proc.devRef .tc main_arg4) := ((W9_arr m ρ c 2).trans (((dat0 (V8 m ρ) c).arrAt_in 2 rfl _).trans (A_eq0 (V8 m ρ) c 2))).symm
    _ = W10 m ρ c (Proc.devRef .tc main_arg4) := (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W11 m ρ c (Proc.devRef .tc main_arg4) := (W11_of_ne m ρ c main_arg4 (by decide)).symm
    _ = m ((c : Thread nD τ).loc main_arg4) := W11_main_arg4 m ρ c

theorem edge_b (c : Dev nD) : V8 m ρ c main_arg5 = m ((c : Thread nD τ).loc main_arg5) :=
  calc V8 m ρ c main_arg5
    _ = W9 m ρ c (Proc.devRef .tc main_arg5) := ((W9_arr m ρ c 3).trans (((dat0 (V8 m ρ) c).arrAt_in 3 rfl _).trans (A_eq0 (V8 m ρ) c 3))).symm
    _ = W10 m ρ c (Proc.devRef .tc main_arg5) := (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W11 m ρ c (Proc.devRef .tc main_arg5) := (W11_of_ne m ρ c main_arg5 (by decide)).symm
    _ = m ((c : Thread nD τ).loc main_arg5) := W11_main_arg5 m ρ c

/-! ## Between the regions: the pooled array is a scatter of the messages -/

/-- The padded target words are not touched by the edge region. -/
theorem tgt_kept (c : Dev nD) : W9 m ρ c (Proc.devRef .tc main_v1) = V8 m ρ c main_v1 := W9_of_ne m ρ c main_v1 (by decide)

/-- The edge region leaves the messages in its output array. -/
theorem msgs (c : Dev nD) : (W9 m ρ c (Proc.devRef .tc main_v6) : S634880x128.Idx → EReal) = Edge.msgArr (V8 m ρ) c :=
  (W9_arr m ρ c 4).trans (Edge.edge_arrAt (V8 m ρ) c)

/-- What the node region finds in the pooled array: zeros, plus the messages scattered at the padded target words. -/
theorem pooled_term (c : Dev nD) : (V10 m ρ c main_v9 : S50000x128.Idx → EReal) =
    Host.scatterAdd (F := Ideal) scatter_S50000x128_S634880x1_S634880x128_1_0_0_1
      (broadcastInDim S50000x128 ![] bcast_S_S50000x128 (constant (F := Ideal) S_ .f32 0x00000000#32))
      (broadcastInDim S634880x1 ![0] bcast_S634880_S634880x1_0 (W9 m ρ c (Proc.devRef .tc main_v1) : S634880.Idx → BitVec 32))
      (W9 m ρ c (Proc.devRef .tc main_v6) : S634880x128.Idx → EReal) := by
  show StableHlo.after hostOps1 (W9 m ρ c) (Proc.devRef .tc main_v9) = _
  after_results

/-- A vector made a column, read at `(e, 0)`. -/
theorem column_apply {α : Type} (y : S634880.Idx → α) (e : Fin 634880) :
    broadcastInDim S634880x1 ![0] bcast_S634880_S634880x1_0 y (ix2 e 0) = y (ix1 e) :=
  broadcastInDim_apply _ bcast_S634880_S634880x1_0 y (ix2 e 0) (ix1 e) (fun a => match a with
    | ⟨0, _⟩ => by show e.val = if (634880 : Nat) = 1 then 0 else e.val; rw [if_neg (by decide)])

/-- The scatter's operand is zero everywhere. -/
theorem zeros_apply (i : S50000x128.Idx) :
    broadcastInDim S50000x128 ![] bcast_S_S50000x128 (constant (F := Ideal) S_ .f32 0x00000000#32) i = (0 : EReal) := by
  rw [broadcastInDim_apply _ bcast_S_S50000x128 _ i (fun a => a.elim0) (fun a => a.elim0)]
  exact Ideal.ofBits_zero_f32

end Cert.KernelIdeal.Layer

end
-- ==== Proof.PadSum.lean ====
/-
  Trailing zero terms, with the longer family's length a variable: a filtered sum over `N` positions whose terms from
  position `E` on vanish, and whose first `E` conditions and terms are those of a family over `E` positions, is that
  family's filtered sum.
-/
import proofs.«400210_j1357209666173_1_alg».proof.Proof.Spec

noncomputable section

open scoped BigOperators

namespace Cert.GcnSpec

theorem padded_sum_le {E N : ℕ} (hEN : E ≤ N) (c' : Fin N → Prop) [DecidablePred c'] (f' : Fin N → EReal)
    (c : Fin E → Prop) [DecidablePred c] (f : Fin E → EReal)
    (hc : ∀ e : Fin E, c' (Fin.castLE hEN e) ↔ c e) (hf : ∀ e : Fin E, f' (Fin.castLE hEN e) = f e)
    (hz : ∀ e' : Fin N, E ≤ e'.val → f' e' = 0) :
    ∑ e ∈ Finset.univ.filter c', f' e = ∑ e ∈ Finset.univ.filter c, f e := by
  obtain ⟨P, rfl⟩ := Nat.exists_eq_add_of_le hEN
  exact padded_sum_eq c' f' c f (fun e => hc e) (fun e => hf e)
    (fun p => hz _ (by show E ≤ E + p.val; exact Nat.le_add_right _ _))

end Cert.GcnSpec

end
-- ==== Proof.KernelValue.lean ====
/-
  The kernel program's result array is the layer `GcnSpec.out` of its arguments.

  Read backwards from the end of the run: the node region writes, at `(n, j)`, the pooled row `n` through the second
  dense layer and the rectifier plus `x (n, j)`; the pooled array is the host's accumulating scatter of the edge region's
  messages at the padded target words, so its entry `(n, k)` is the sum of the messages `(e, k)` over the 634880
  positions `e` whose target word, read signed, is `n`; the first 625000 positions are the edges, with their own target
  word, gathered row and weight, and the last 9880 carry weight `0`, hence message `0`: the sum is the sum over the edges.
-/
import proofs.«400210_j1357209666173_1_alg».proof.Proof.Gen.KernelIdeal.Frame
import proofs.«400210_j1357209666173_1_alg».proof.Proof.Spec
import proofs.«400210_j1357209666173_1_alg».proof.Proof.LibGS
import proofs.«400210_j1357209666173_1_alg».proof.Proof.EdgeRegion
import proofs.«400210_j1357209666173_1_alg».proof.Proof.NodeRegion
import proofs.«400210_j1357209666173_1_alg».proof.Proof.HostBefore
import proofs.«400210_j1357209666173_1_alg».proof.Proof.KernelArgs
import proofs.«400210_j1357209666173_1_alg».proof.Proof.PadSum
import Idealize.ShloMosaic.Lib.StableHlo.Run
import Idealize.ShloMosaic.Lib.Pipeline.Value

set_option maxRecDepth 16384

noncomputable section

namespace Cert.KernelIdeal.Layer

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.HostBefore (xA srcA tgtA nrmA)

variable (m : (ℓ : Loc nD τ sig) → Buf (Elt Ideal) ℓ) (ρ : Dev nD → PrngReg)

/-! ## One message -/

/-- At an edge's position the message is the edge's: its gathered row is the table's row at its source word, its weight
    its own. -/
theorem msg_edge (c : Dev nD) (h : Cert.GcnSpec.SrcInRange (srcA m c)) (e : Fin 625000) (k : Fin 128) :
    Edge.msgArr (V8 m ρ) c (ix2 (Fin.castAdd 9880 e) k)
      = Cert.GcnSpec.msg (xA m c) (m ((c : Thread nD τ).loc main_arg4)) (m ((c : Thread nD τ).loc main_arg5))
          (Cert.GcnSpec.clipRow (srcA m c (ix1 e))) (nrmA m c (ix1 e)) k := by
  show Cert.GcnSpec.denseRelu (fun l => (V8 m ρ c main_v4 : S634880x128.Idx → EReal) (ix2 (Fin.castAdd 9880 e) l))
      (V8 m ρ c main_arg4) (V8 m ρ c main_arg5) k * (V8 m ρ c main_v5 : S634880x1.Idx → EReal) (ix2 (Fin.castAdd 9880 e) 0)
    = Cert.GcnSpec.denseRelu (fun l => xA m c (ix2 (Cert.GcnSpec.clipRow (srcA m c (ix1 e))) l))
      (m ((c : Thread nD τ).loc main_arg4)) (m ((c : Thread nD τ).loc main_arg5)) k * nrmA m c (ix1 e)
  rw [HostBefore.norm_edge m ρ c e, edge_w m ρ c, edge_b m ρ c]
  simp only [HostBefore.gathered_edge m ρ c h e]

/-- After the edges the weight is zero, and so is the message. -/
theorem msg_pad (c : Dev nD) (p : Fin 9880) (k : Fin 128) :
    Edge.msgArr (V8 m ρ) c (ix2 (Fin.natAdd 625000 p) k) = 0 := by
  have hz : Edge.nArr (V8 m ρ) c (ix2 (Fin.natAdd 625000 p) 0) = (0 : EReal) := HostBefore.norm_pad m ρ c p
  show Cert.GcnSpec.denseRelu _ _ _ _ * Edge.nArr (V8 m ρ) c (ix2 (Fin.natAdd 625000 p) 0) = (0 : EReal)
  rw [hz]
  exact mul_zero _

/-! ## The pooled array and the result -/

/-- The host's accumulating scatter of rows, read at `(n, k)`: the operand's entry plus the updates' entries `(e, k)` over
    the positions `e` whose start word, read signed, is `n`. -/
theorem scatter_read (x : S50000x128.Idx → EReal) (idx : S634880x1.Idx → BitVec 32) (upd : S634880x128.Idx → EReal)
    (n : Fin 50000) (k : Fin 128) :
    Host.scatterAdd (F := Ideal) (φ := .f32) scatter_S50000x128_S634880x1_S634880x128_1_0_0_1 x idx upd (ix2 n k)
      = x (ix2 n k) + ∑ e ∈ Finset.univ.filter (fun e : Fin 634880 => (idx (ix2 e 0)).toInt = (n.val : ℤ)), upd (ix2 e k) :=
  Cert.LibGS.scatterAdd_rows_apply scatter_S50000x128_S634880x1_S634880x128_1_0_0_1_wf x idx upd n k

/-- Entry `(n, k)` of the pooled array as a sum over the 634880 padded positions. -/
theorem pooled_sum (c : Dev nD) (n : Fin 50000) (k : Fin 128) :
    (V10 m ρ c main_v9 : S50000x128.Idx → EReal) (ix2 n k)
      = ∑ e ∈ Finset.univ.filter (fun e : Fin 634880 =>
            ((V8 m ρ c main_v1 : S634880.Idx → BitVec 32) (ix1 e)).toInt = (n.val : ℤ)),
          Edge.msgArr (V8 m ρ) c (ix2 e k) := by
  rw [pooled_term m ρ c, scatter_read, zeros_apply, zero_add, msgs m ρ c, tgt_kept m ρ c]
  have hcol : ∀ e : Fin 634880,
      broadcastInDim S634880x1 ![0] bcast_S634880_S634880x1_0 (V8 m ρ c main_v1 : S634880.Idx → BitVec 32) (ix2 e 0)
        = (V8 m ρ c main_v1 : S634880.Idx → BitVec 32) (ix1 e) := fun e => column_apply _ e
  simp only [hcol]

/-- From position 625000 on the message is zero. -/
theorem msg_past (c : Dev nD) (e' : Fin 634880) (he : 625000 ≤ e'.val) (k : Fin 128) :
    Edge.msgArr (V8 m ρ) c (ix2 e' k) = 0 := by
  have hlt : e'.val < 634880 := e'.isLt
  have hp : e' = Fin.natAdd 625000 (⟨e'.val - 625000, by omega⟩ : Fin 9880) :=
    Fin.ext (by show e'.val = 625000 + (e'.val - 625000); omega)
  rw [hp]
  exact msg_pad m ρ c _ k

/-- Entry `(n, k)` of the pooled array: the messages of the edges whose target word is `n`. -/
theorem pooled_apply (c : Dev nD) (h : Cert.GcnSpec.SrcInRange (srcA m c)) (n : Fin 50000) (k : Fin 128) :
    (V10 m ρ c main_v9 : S50000x128.Idx → EReal) (ix2 n k)
      = Cert.GcnSpec.pooled (xA m c) (srcA m c) (tgtA m c) (nrmA m c) (m ((c : Thread nD τ).loc main_arg4))
          (m ((c : Thread nD τ).loc main_arg5)) n k := by
  rw [pooled_sum m ρ c n k]
  unfold Cert.GcnSpec.pooled
  refine Cert.GcnSpec.padded_sum_le (E := 625000) (N := 634880) (by omega) _ _ _ _ (fun e => ?_) (fun e => ?_)
    (fun e' he => msg_past m ρ c e' he k)
  · have hpos : (Fin.castLE (by omega : 625000 ≤ 634880) e : Fin 634880) = Fin.castAdd 9880 e := Fin.ext rfl
    rw [hpos, HostBefore.tgt_edge m ρ c e]
  · have hpos : (Fin.castLE (by omega : 625000 ≤ 634880) e : Fin 634880) = Fin.castAdd 9880 e := Fin.ext rfl
    rw [hpos]
    exact msg_edge m ρ c h e k

/-- THE RESULT: after the run the result array holds the layer of the launch arguments. -/
theorem result_eq (c : Dev nD) (h : Cert.GcnSpec.SrcInRange (srcA m c)) :
    (W11 m ρ c (Proc.devRef .tc main_v10) : S50000x128.Idx → EReal)
      = Cert.GcnSpec.out (xA m c) (srcA m c) (tgtA m c) (nrmA m c) (m ((c : Thread nD τ).loc main_arg4))
          (m ((c : Thread nD τ).loc main_arg5)) (m ((c : Thread nD τ).loc main_arg6)) (m ((c : Thread nD τ).loc main_arg7)) := by
  rw [show W11 m ρ c (Proc.devRef .tc main_v10) = (dat1 (V10 m ρ) c).arrAt 4 cfg1.N from W11_arr m ρ c 4, Node.node_arrAt]
  funext i
  obtain ⟨n, j, rfl⟩ : ∃ (n : Fin 50000) (j : Fin 128), i = ix2 n j := ⟨i 0, i 1, eq_ix2 i⟩
  rw [Cert.GcnSpec.out_ix2]
  show Cert.GcnSpec.denseRelu (fun k => (V10 m ρ c main_v9 : S50000x128.Idx → EReal) (ix2 n k)) (V10 m ρ c main_arg6)
      (V10 m ρ c main_arg7) j + (V10 m ρ c main_arg0 : S50000x128.Idx → EReal) (ix2 n j) = _
  rw [node_x m ρ c, node_w m ρ c, node_b m ρ c]
  simp only [pooled_apply m ρ c h n]
  rfl

end Cert.KernelIdeal.Layer

end
-- ==== Proof.RefValue.lean ====
/-
  The reference's result, read index by index, is the layer `GcnSpec.out` of its arguments, when every source word is a
  row of the node table.

  From the inside out: a source word that is not negative passes the wrap-around of negative words unchanged, so the
  row lookup reads the node table at the word's clipped row; the dense layer, the rectifier and the edge weight over the
  looked-up rows give the edge's message; the accumulating segment sum from the zero array gives what each node pools;
  the second dense layer, the rectifier and the residual give the result.
-/
import proofs.«400210_j1357209666173_1_alg».proof.Proof.Gen.ReferenceIdeal.Read
import proofs.«400210_j1357209666173_1_alg».proof.Proof.Spec
import proofs.«400210_j1357209666173_1_alg».proof.Proof.LibGS

set_option maxRecDepth 16384

noncomputable section

namespace Cert.ReferenceIdeal.RefValue

open Cert.ReferenceIdeal Cert.ReferenceIdeal.Gen Idealize.ShloMosaic Idealize.ShloMosaic.TcCoe Idealize.ShloMosaic.ValueIdx

open Cert.ReferenceIdeal.Read

/-! ## The source words -/

/-- A word that is not negative when read signed passes the reference's wrap-around unchanged. -/
theorem select_slt_zero (w a : BitVec 32) (h : 0 ≤ w.toInt) :
    Scalar.select (IntOp.cmpi .slt w 0#32) a w = w := by
  have hlt : w.slt 0#32 = false := by
    simp only [BitVec.slt, BitVec.toInt_zero, decide_eq_false_iff_not, Int.not_lt]
    exact h
  unfold Scalar.select IntOp.cmpi
  simp only [hlt]
  rfl

/-- The start word the lookup reads for edge `e` is the edge's source word. -/
theorem src_word (x1 : (⟨S625000, .i32⟩ : BufTy).Contents (Elt Ideal)) (h : Cert.GcnSpec.SrcInRange x1) (e : Fin 625000) :
    val_main_v5 (F := Ideal) x1 (ix2 e 0) = x1 (ix1 e) := by
  have hi : idx_main_v5 (ix2 e (0 : Fin 1)) = ix1 e := funext fun a => Fin.ext (by match a with | ⟨0, _⟩ => rfl)
  rw [val_main_v5_apply, val_main_v4_apply, val_main_v1_apply, val_main_v0_apply, val_main_c_apply, hi]
  exact select_slt_zero _ _ (h e).1

/-! ## The looked-up rows -/

/-- Entry `(e, l)` of the lookup is the node table at the clipped source row of edge `e`. -/
theorem gathered_apply (x0 : (⟨S50000x128, .f32⟩ : BufTy).Contents (Elt Ideal)) (x1 : (⟨S625000, .i32⟩ : BufTy).Contents (Elt Ideal))
    (h : Cert.GcnSpec.SrcInRange x1) (e : Fin 625000) (l : Fin 128) :
    val_main_v6 (F := Ideal) x0 x1 (ix2 e l) = x0 (ix2 (Cert.GcnSpec.clipRow (x1 (ix1 e))) l) := by
  have hw := src_word x1 h e
  unfold val_main_v6
  generalize val_main_v5 (F := Ideal) x1 = y at hw ⊢
  have hd : gather_S50000x128_S625000x1_S625000x128_1_0_n_n_0_1_1128
      = Cert.LibGS.rowGatherDims 50000 625000 128 Facts₀.gather_S50000x128_S625000x1_S625000x128_1_0_n_n_0_1_1128_wf := rfl
  rw [hd, Cert.LibGS.gather_rows_apply (by decide)]
  have hr : (⟨min (y (ix2 e 0)).toInt.toNat (50000 - 1), by omega⟩ : Fin 50000) = Cert.GcnSpec.clipRow (x1 (ix1 e)) :=
    Fin.ext (by show min (y (ix2 e 0)).toInt.toNat (50000 - 1) = min (x1 (ix1 e)).toInt.toNat 49999; rw [hw])
  exact congrArg (fun r => x0 (ix2 r l)) hr

/-! ## The messages -/

/-- Entry `(e, k)` of the weighted, rectified dense layer over the looked-up rows is the message of edge `e` at
    feature `k`. -/
theorem msg_apply (x0 : (⟨S50000x128, .f32⟩ : BufTy).Contents (Elt Ideal)) (x1 : (⟨S625000, .i32⟩ : BufTy).Contents (Elt Ideal))
    (x3 : (⟨S625000, .f32⟩ : BufTy).Contents (Elt Ideal)) (x4 : (⟨S128x128, .f32⟩ : BufTy).Contents (Elt Ideal))
    (x5 : (⟨S128, .f32⟩ : BufTy).Contents (Elt Ideal)) (h : Cert.GcnSpec.SrcInRange x1) (e : Fin 625000) (k : Fin 128) :
    val_main_v14 (F := Ideal) x0 x1 x3 x4 x5 (ix2 e k)
      = Cert.GcnSpec.msg x0 x4 x5 (Cert.GcnSpec.clipRow (x1 (ix1 e))) (x3 (ix1 e)) k := by
  have h13 : idx_main_v7 (idx_main_v13 (ix2 e k)) = ix1 e := funext fun a => Fin.ext (by match a with | ⟨0, _⟩ => rfl)
  have h10 : idx_main_v9 (idx_main_v10 (ix2 e k)) = ix1 k := funext fun a => Fin.ext (by match a with | ⟨0, _⟩ => rfl)
  have hl : ∀ l : Fin 128, lidx_main_v8 (ix2 e k) l = ix2 e l := fun l =>
    funext fun a => Fin.ext (by match a with | ⟨0, _⟩ => rfl | ⟨1, _⟩ => rfl)
  have hr : ∀ l : Fin 128, ridx_main_v8 (ix2 e k) l = ix2 l k := fun l =>
    funext fun a => Fin.ext (by match a with | ⟨0, _⟩ => rfl | ⟨1, _⟩ => rfl)
  rw [val_main_v14_apply, val_main_v13_apply, val_main_v7_apply, h13, val_main_v12_apply, val_main_v11_apply,
    val_main_v8_apply, val_main_v10_apply, val_main_v9_apply, h10, val_main_call0_v0_apply, val_main_call0_cst_apply]
  simp only [hl, hr, gathered_apply x0 x1 h]
  rw [Ideal.mulf_def, Ideal.maximumf_def, Ideal.addf_def, Ideal.ofBits_def, Ideal.ofBits_zero_f32, mul_comm]
  rfl

/-! ## The pooled messages -/

/-- The start word the segment sum reads for edge `e` is the edge's target word. -/
theorem tgt_word (x2 : (⟨S625000, .i32⟩ : BufTy).Contents (Elt Ideal)) (e : Fin 625000) :
    val_main_v16 (F := Ideal) x2 (ix2 e 0) = x2 (ix1 e) := by
  have hi : idx_main_v16 (ix2 e (0 : Fin 1)) = ix1 e := funext fun a => Fin.ext (by match a with | ⟨0, _⟩ => rfl)
  rw [val_main_v16_apply, hi]

/-- The segment sum starts from the zero array. -/
theorem zero_apply (i : S50000x128.Idx) : val_main_v15 (F := Ideal) i = 0 := by
  rw [val_main_v15_apply, val_main_cst_apply, Ideal.ofBits_def, Ideal.ofBits_zero_f32]

/-- Entry `(n, k)` of the segment sum is what node `n` pools at feature `k`. -/
theorem pooled_apply (x0 : (⟨S50000x128, .f32⟩ : BufTy).Contents (Elt Ideal)) (x1 x2 : (⟨S625000, .i32⟩ : BufTy).Contents (Elt Ideal))
    (x3 : (⟨S625000, .f32⟩ : BufTy).Contents (Elt Ideal)) (x4 : (⟨S128x128, .f32⟩ : BufTy).Contents (Elt Ideal))
    (x5 : (⟨S128, .f32⟩ : BufTy).Contents (Elt Ideal)) (h : Cert.GcnSpec.SrcInRange x1) (n : Fin 50000) (k : Fin 128) :
    val_main_v17 (F := Ideal) x0 x1 x2 x3 x4 x5 (ix2 n k) = Cert.GcnSpec.pooled x0 x1 x2 x3 x4 x5 n k := by
  have hz := zero_apply (ix2 n k)
  have ht := tgt_word x2
  have hm := msg_apply x0 x1 x3 x4 x5 h
  unfold val_main_v17
  generalize val_main_v15 (F := Ideal) = z at hz
  generalize val_main_v16 (F := Ideal) x2 = t at ht
  generalize val_main_v14 (F := Ideal) x0 x1 x3 x4 x5 = u at hm
  have hd : scatter_S50000x128_S625000x1_S625000x128_1_0_0_1
      = Cert.LibGS.rowScatterDims 50000 625000 128 Facts₀.scatter_S50000x128_S625000x1_S625000x128_1_0_0_1_wf := rfl
  unfold Host.scatterAdd
  rw [Ideal.hostScatterAdd_def, hd, Cert.LibGS.scatterAdd_rows_apply, hz, zero_add]
  simp only [ht]
  unfold Cert.GcnSpec.pooled
  exact Finset.sum_congr rfl fun e _ => hm e k

/-! ## The result -/

theorem ref_eq (x0 : (⟨S50000x128, .f32⟩ : BufTy).Contents (Elt Ideal)) (x1 x2 : (⟨S625000, .i32⟩ : BufTy).Contents (Elt Ideal))
    (x3 : (⟨S625000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (h : Cert.GcnSpec.SrcInRange x1) :
    Cert.ReferenceIdeal.Read.val_main_v23 (F := Ideal) x0 x1 x2 x3 x4 x5 x6 x7 = Cert.GcnSpec.out x0 x1 x2 x3 x4 x5 x6 x7 := by
  funext i
  obtain ⟨n, j, rfl⟩ : ∃ (n : Fin 50000) (j : Fin 128), i = ix2 n j := ⟨i 0, i 1, eq_ix2 i⟩
  have h20 : idx_main_v19 (idx_main_v20 (ix2 n j)) = ix1 j := funext fun a => Fin.ext (by match a with | ⟨0, _⟩ => rfl)
  have hl : ∀ k : Fin 128, lidx_main_v18 (ix2 n j) k = ix2 n k := fun k =>
    funext fun a => Fin.ext (by match a with | ⟨0, _⟩ => rfl | ⟨1, _⟩ => rfl)
  have hr : ∀ k : Fin 128, ridx_main_v18 (ix2 n j) k = ix2 k j := fun k =>
    funext fun a => Fin.ext (by match a with | ⟨0, _⟩ => rfl | ⟨1, _⟩ => rfl)
  rw [Cert.GcnSpec.out_ix2, val_main_v23_apply, val_main_v22_apply, val_main_v21_apply, val_main_v18_apply,
    val_main_v20_apply, val_main_v19_apply, h20, val_main_call1_v0_apply, val_main_call1_cst_apply]
  simp only [hl, hr, pooled_apply x0 x1 x2 x3 x4 x5 h]
  rw [Ideal.addf_def, Ideal.maximumf_def, Ideal.addf_def, Ideal.ofBits_def, Ideal.ofBits_zero_f32]
  rfl

end Cert.ReferenceIdeal.RefValue

end
-- ==== Proof.SrcRange.lean ====
/-
  The precondition's last conjunct, decoded: if the printed precondition holds, every source word, read signed, lies in
  `[0, 50000)`, the rows of the node table.
-/
import proofs.«400210_j1357209666173_1_alg».proof.Pre_finite_inputs
import proofs.«400210_j1357209666173_1_alg».proof.Proof.Spec
import Idealize.ShloMosaic.Lib.ReduceAll
import Idealize.ShloMosaic.Lib.StableHlo.Predicate

set_option maxRecDepth 16384

noncomputable section

namespace Cert.SrcRange

open Idealize.ShloMosaic Idealize.ShloMosaic.ValueIdx Cert.Pre_finite_inputs

theorem srcInRange_of_pre {F : FTy → Type} [FloatOps F] [Cert.Pre_finite_inputs.Facts]
    (a0 : FVec F S50000x128 .f32) (a1 a2 : IVec S625000 32) (a3 : FVec F S625000 .f32) (a4 : FVec F S128x128 .f32)
    (a5 : FVec F S128 .f32) (a6 : FVec F S128x128 .f32) (a7 : FVec F S128 .f32)
    (h : Cert.Pre_finite_inputs.fn (F := F) a0 a1 a2 a3 a4 a5 a6 a7 = (fun _ => 1#1)) :
    Cert.GcnSpec.SrcInRange a1 := by
  -- The claim at one edge.
  intro e
  -- The printed function is a chain of conjunctions of bits; at its one index it is `1`.
  have h0 := congrFun h ValueIdx.ix0
  dsimp only [fn, fn_part1, fn_part2] at h0
  -- Its last conjunct: the conjunction, over every edge, of the two word comparisons.
  have h1 := (IntOp.andi_eq_one.1 h0).2
  haveI : Subsingleton S_.Idx := ⟨fun a b => funext fun d => d.elim0⟩
  -- A conjunction over all edges that is `1` is `1` at edge `e`.
  have h2 := Host.reduce_andi_all _ _ _ _ _ h1 (ix1 e)
  obtain ⟨hge, hlt⟩ := IntOp.andi_eq_one.1 h2
  -- Each comparison reads both words signed; a broadcast scalar read at `e` is the scalar.
  have hge' : (0#32 : BitVec 32).toInt ≤ (a1 (ix1 e)).toInt := IntOp.cmpi_sge.1 hge
  have hlt' : (a1 (ix1 e)).toInt < (50000#32 : BitVec 32).toInt := IntOp.cmpi_slt.1 hlt
  have e0 : (0#32 : BitVec 32).toInt = 0 := by decide
  have e1 : (50000#32 : BitVec 32).toInt = 50000 := by decide
  rw [e0] at hge'
  rw [e1] at hlt'
  exact ⟨hge', hlt'⟩

end Cert.SrcRange

end
-- ==== Proof.lean ====
/-
  A graph-convolution layer as a kernel program against its reference, over the extended reals.

  Both programs compute, for a node table `x`, edges with source words `src`, target words `tgt` and weights `nrm`, and
  two dense layers, the array `GcnSpec.out`: every edge's message is its source row through the first dense layer and the
  rectifier, scaled by its weight; every node pools the messages of the edges that target it; the result is the pooled
  row through the second dense layer and the rectifier, plus the node's own row.

  The kernel program pads the edges to a multiple of its block with weight-zero edges, computes the messages in one
  gridded region and the node layer in another, and gathers and scatters on the host; the reference does all of it on the
  host over the unpadded edges. The two agree where every source word is a row of the table (the precondition's last
  conjunct): outside that range the kernel program's lookup fills the row with a marker where the reference clips the
  word. A weight-zero edge's message is zero, so the padded sum is the unpadded one; a target word that names no node is
  dropped by both scatters alike, so nothing is asked of the target words.

  The frames of the two kernel programs are the generated ones; the reference's frame is its generated run with the
  result dropped; the idealization rewrote nothing.
-/
import proofs.«400210_j1357209666173_1_alg».proof.Defs
import proofs.«400210_j1357209666173_1_alg».proof.Proof.Gen.Kernel
import proofs.«400210_j1357209666173_1_alg».proof.Proof.Gen.Kernel.Skeleton
import proofs.«400210_j1357209666173_1_alg».proof.Proof.Gen.Kernel.Launch
import proofs.«400210_j1357209666173_1_alg».proof.Proof.Gen.Kernel.Points
import proofs.«400210_j1357209666173_1_alg».proof.Proof.Gen.Kernel.Frame
import proofs.«400210_j1357209666173_1_alg».proof.Proof.Gen.KernelIdeal
import proofs.«400210_j1357209666173_1_alg».proof.Proof.Gen.KernelIdeal.Skeleton
import proofs.«400210_j1357209666173_1_alg».proof.Proof.Gen.KernelIdeal.Launch
import proofs.«400210_j1357209666173_1_alg».proof.Proof.Gen.KernelIdeal.Points
import proofs.«400210_j1357209666173_1_alg».proof.Proof.Gen.KernelIdeal.Frame
import proofs.«400210_j1357209666173_1_alg».proof.Proof.Gen.ReferenceIdeal
import proofs.«400210_j1357209666173_1_alg».proof.Proof.Gen.ReferenceIdeal.Run
import proofs.«400210_j1357209666173_1_alg».proof.Proof.Gen.ReferenceIdeal.Read
import proofs.«400210_j1357209666173_1_alg».proof.Proof.Gen.Pre_finite_inputs
import proofs.«400210_j1357209666173_1_alg».proof.Proof.KRun
import proofs.«400210_j1357209666173_1_alg».proof.Proof.KernelValue
import proofs.«400210_j1357209666173_1_alg».proof.Proof.RefValue
import proofs.«400210_j1357209666173_1_alg».proof.Proof.SrcRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the layer of those arguments in their result
    arrays: the kernel program's by reading its run backwards from the last region, the reference's by reading its
    run's term index by index. -/
theorem algebraic : Cert.algebraic_KernelIdeal_ReferenceIdeal := by
  intro m ρ m' ρ' hpre hagree
  have hsrc : ∀ c : Dev Cert.KernelIdeal.nD, Cert.GcnSpec.SrcInRange
      (m ((c.tc : Thread Cert.KernelIdeal.nD Cert.KernelIdeal.τ).loc Cert.KernelIdeal.main_arg1)) :=
    fun c => Cert.SrcRange.srcInRange_of_pre _ _ _ _ _ _ _ _ (hpre c)
  refine ⟨fun c => Cert.GcnSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Layer.result_eq m ρ c (hsrc c)), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    exact (Cert.ReferenceIdeal.Read.val_main_v23_eq _ _ _ _ _ _ _ _).trans
      (Cert.ReferenceIdeal.RefValue.ref_eq _ _ _ _ _ _ _ _ (hsrc c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
